-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v80_1)) (v1 : (c : Dev Cert.KernelIdeal.nD) → Buf (Elt Ideal) ((c.tc : Thread Cert.KernelIdeal.nD Cert.KernelIdeal.τ).loc Cert.KernelIdeal.main_v51_0)) (v2 : (c : Dev Cert.KernelIdeal.nD) → Buf (Elt Ideal) ((c.tc : Thread Cert.KernelIdeal.nD Cert.KernelIdeal.τ).loc Cert.KernelIdeal.main_v80_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80_1) = v0 c
          ∧ r.2.mem ((c.tc : Thread Cert.KernelIdeal.nD Cert.KernelIdeal.τ).loc Cert.KernelIdeal.main_v51_0) = v1 c
          ∧ r.2.mem ((c.tc : Thread Cert.KernelIdeal.nD Cert.KernelIdeal.τ).loc Cert.KernelIdeal.main_v80_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v99) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_arg6 : FVec F S64x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S256x128 .f32) (main_arg3 : FVec F S128 .f32) (main_arg4 : FVec F S128x64 .f32) (main_arg5 : FVec F S64 .f32) (main_arg6 : FVec F S64x64 .f32) (main_arg7 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x128 : Shape := ⟨2, ![50000, 128]⟩
abbrev S5000x256 : Shape := ⟨2, ![5000, 256]⟩
abbrev S5000x128 : Shape := ⟨2, ![5000, 128]⟩
abbrev S800000x128 : Shape := ⟨2, ![800000, 128]⟩
abbrev S50000x1 : Shape := ⟨2, ![50000, 1]⟩
abbrev S1x128 : Shape := ⟨2, ![1, 128]⟩
abbrev S1x64 : Shape := ⟨2, ![1, 64]⟩
abbrev S50000x64 : Shape := ⟨2, ![50000, 64]⟩
abbrev S5000x64 : Shape := ⟨2, ![5000, 64]⟩
abbrev S800000x64 : Shape := ⟨2, ![800000, 64]⟩

abbrev nBuf : Space → Nat
  | .hbm => 117
  | .vmem => 23
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .i1⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x1, .f32⟩
  | .hbm, ⟨57, _⟩ => ⟨S50000x128, .f32⟩
  | .hbm, ⟨58, _⟩ => ⟨S50000x128, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .f32⟩
  | .hbm, ⟨68, _⟩ => ⟨S_, .f32⟩
  | .hbm, ⟨69, _⟩ => ⟨S50000x128, .f32⟩
  | .hbm, ⟨70, _⟩ => ⟨S800000x1, .i32⟩
  | .hbm, ⟨71, _⟩ => ⟨S50000x128, .f32⟩
  | .hbm, ⟨72, _⟩ => ⟨S50000x1, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S64, .f32⟩
  | .hbm, ⟨77, _⟩ => ⟨S1x128, .f32⟩
  | .hbm, ⟨78, _⟩ => ⟨S1x64, .f32⟩
  | .hbm, ⟨79, _⟩ => ⟨S50000x128, .f32⟩
  | .hbm, ⟨80, _⟩ => ⟨S50000x64, .f32⟩
  | .hbm, ⟨81, _⟩ => ⟨S_, .i32⟩
  | .hbm, ⟨82, _⟩ => ⟨S800000, .i32⟩
  | .hbm, ⟨83, _⟩ => ⟨S800000, .i1⟩
  | .hbm, ⟨84, _⟩ => ⟨S_, .i32⟩
  | .hbm, ⟨85, _⟩ => ⟨S800000, .i32⟩
  | .hbm, ⟨86, _⟩ => ⟨S800000, .i32⟩
  | .hbm, ⟨87, _⟩ => ⟨S800000, .i32⟩
  | .hbm, ⟨88, _⟩ => ⟨S800000x1, .i32⟩
  | .hbm, ⟨89, _⟩ => ⟨S800000x64, .f32⟩
  | .hbm, ⟨90, _⟩ => ⟨S_, .f32⟩
  | .hbm, ⟨91, _⟩ => ⟨S50000x64, .f32⟩
  | .hbm, ⟨92, _⟩ => ⟨S800000x1, .i32⟩
  | .hbm, ⟨93, _⟩ => ⟨S50000x64, .f32⟩
  | .hbm, ⟨94, _⟩ => ⟨S50000x1, .f32⟩
  | .hbm, ⟨95, _⟩ => ⟨S50000x64, .f32⟩
  | .hbm, ⟨96, _⟩ => ⟨S50000x64, .f32⟩
  | .hbm, ⟨97, _⟩ => ⟨S_, .i32⟩
  | .hbm, ⟨98, _⟩ => ⟨S800000, .i32⟩
  | .hbm, ⟨99, _⟩ => ⟨S800000, .i1⟩
  | .hbm, ⟨100, _⟩ => ⟨S_, .i32⟩
  | .hbm, ⟨101, _⟩ => ⟨S800000, .i32⟩
  | .hbm, ⟨102, _⟩ => ⟨S800000, .i32⟩
  | .hbm, ⟨103, _⟩ => ⟨S800000, .i32⟩
  | .hbm, ⟨104, _⟩ => ⟨S800000x1, .i32⟩
  | .hbm, ⟨105, _⟩ => ⟨S800000x64, .f32⟩
  | .hbm, ⟨106, _⟩ => ⟨S_, .f32⟩
  | .hbm, ⟨107, _⟩ => ⟨S50000x64, .f32⟩
  | .hbm, ⟨108, _⟩ => ⟨S800000x1, .i32⟩
  | .hbm, ⟨109, _⟩ => ⟨S50000x64, .f32⟩
  | .hbm, ⟨110, _⟩ => ⟨S50000x1, .f32⟩
  | .hbm, ⟨111, _⟩ => ⟨S50000x64, .f32⟩
  | .hbm, ⟨112, _⟩ => ⟨S50000x64, .f32⟩
  | .hbm, ⟨113, _⟩ => ⟨S1x64, .f32⟩
  | .hbm, ⟨114, _⟩ => ⟨S1x64, .f32⟩
  | .hbm, ⟨115, _⟩ => ⟨S50000x64, .f32⟩
  | .hbm, ⟨116, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S1x64, .f32⟩
  | .local _ .vmem, ⟨10, _⟩ => ⟨S5000x128, .f32⟩
  | .local _ .vmem, ⟨11, _⟩ => ⟨S5000x128, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S1x64, .f32⟩
  | .local _ .vmem, ⟨17, _⟩ => ⟨S64x64, .f32⟩
  | .local _ .vmem, ⟨18, _⟩ => ⟨S1x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_v17 : Ref sig .tc := ⟨.hbm, 34, rfl⟩
abbrev main_cst_6 : Ref sig .tc := ⟨.hbm, 35, rfl⟩
abbrev main_v18 : Ref sig .tc := ⟨.hbm, 36, rfl⟩
abbrev main_v19 : Ref sig .tc := ⟨.hbm, 37, rfl⟩
abbrev main_cst_7 : Ref sig .tc := ⟨.hbm, 38, rfl⟩
abbrev main_call1_v0 : Ref sig .tc := ⟨.hbm, 39, rfl⟩
abbrev main_call1_v1 : Ref sig .tc := ⟨.hbm, 40, rfl⟩
abbrev main_v20 : Ref sig .tc := ⟨.hbm, 41, rfl⟩
abbrev main_v21 : Ref sig .tc := ⟨.hbm, 42, rfl⟩
abbrev main_c : Ref sig .tc := ⟨.hbm, 43, rfl⟩
abbrev main_v22 : Ref sig .tc := ⟨.hbm, 44, rfl⟩
abbrev main_v23 : Ref sig .tc := ⟨.hbm, 45, rfl⟩
abbrev main_c_8 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_9 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_10 : Ref sig .tc := ⟨.hbm, 59, rfl⟩
abbrev main_v35 : Ref sig .tc := ⟨.hbm, 60, rfl⟩
abbrev main_v36 : Ref sig .tc := ⟨.hbm, 61, rfl⟩
abbrev main_c_11 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_12 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_13 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51_0 : Ref sig .tc := ⟨.hbm, 79, rfl⟩
abbrev main_v51_1 : Ref sig .tc := ⟨.hbm, 80, rfl⟩
abbrev main_c_14 : Ref sig .tc := ⟨.hbm, 81, rfl⟩
abbrev main_v52 : Ref sig .tc := ⟨.hbm, 82, rfl⟩
abbrev main_v53 : Ref sig .tc := ⟨.hbm, 83, rfl⟩
abbrev main_c_15 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_16 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_17 : Ref sig .tc := ⟨.hbm, 97, rfl⟩
abbrev main_v65 : Ref sig .tc := ⟨.hbm, 98, rfl⟩
abbrev main_v66 : Ref sig .tc := ⟨.hbm, 99, rfl⟩
abbrev main_c_18 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_19 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80_0 : Ref sig .tc := ⟨.hbm, 115, rfl⟩
abbrev main_v80_1 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc2_sem5_0 : DmaSem sig := 21
abbrev cc2_sem5_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S5000x256_S5000x256_0_0 : ∀ a, (![0, 0] : Fin 2 → Nat) a + S5000x256.size a ≤ S5000x256.size a
  h_S5000x256 : 0 < S5000x256.numel
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S64 : S_.BroadcastsInDim S64 (![] : Fin 0 → Fin S64.rank)
  shapeCasts_S128_S1x128 : S128.ShapeCasts S1x128
  shapeCasts_S64_S1x64 : S64.ShapeCasts S1x64
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  scatter_S50000_S800000x1_S800000_n_0_0_1_wf : ScatterDims.WF S50000 S800000x1 S800000 [] [0] [0] 1
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v51_1) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v77) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v78) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v79) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v80_0) S5000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v80_1) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S50000x128 : Shape := ⟨2, ![50000, 128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 154
  | .vmem => 0
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S128x64, .f32⟩
  | 5 => ⟨S64, .f32⟩
  | 6 => ⟨S64x64, .f32⟩
  | 7 => ⟨S64, .f32⟩
  | 8 => ⟨S1x800000, .i32⟩
  | 9 => ⟨S800000, .i32⟩
  | 10 => ⟨S1x800000, .i32⟩
  | 11 => ⟨S800000, .i32⟩
  | 12 => ⟨S50000x128, .f32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .f32⟩
  | 34 => ⟨S50000, .f32⟩
  | 35 => ⟨S50000, .i1⟩
  | 36 => ⟨S_, .f32⟩
  | 37 => ⟨S50000, .f32⟩
  | 38 => ⟨S50000, .f32⟩
  | 39 => ⟨S_, .f32⟩
  | 40 => ⟨S_, .f32⟩
  | 41 => ⟨S50000, .f32⟩
  | 42 => ⟨S50000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x128, .f32⟩
  | 52 => ⟨S_, .f32⟩
  | 53 => ⟨S50000x128, .f32⟩
  | 54 => ⟨S800000x1, .i32⟩
  | 55 => ⟨S50000x128, .f32⟩
  | 56 => ⟨S50000x1, .f32⟩
  | 57 => ⟨S50000x128, .f32⟩
  | 58 => ⟨S50000x128, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x128, .f32⟩
  | 68 => ⟨S_, .f32⟩
  | 69 => ⟨S50000x128, .f32⟩
  | 70 => ⟨S800000x1, .i32⟩
  | 71 => ⟨S50000x128, .f32⟩
  | 72 => ⟨S50000x1, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S50000x64, .f32⟩
  | 82 => ⟨S_, .f32⟩
  | 83 => ⟨S800000, .f32⟩
  | 84 => ⟨S_, .f32⟩
  | 85 => ⟨S50000, .f32⟩
  | 86 => ⟨S800000x1, .i32⟩
  | 87 => ⟨S50000, .f32⟩
  | 88 => ⟨S_, .f32⟩
  | 89 => ⟨S50000, .f32⟩
  | 90 => ⟨S800000x1, .i32⟩
  | 91 => ⟨S50000, .f32⟩
  | 92 => ⟨S_, .f32⟩
  | 93 => ⟨S50000, .f32⟩
  | 94 => ⟨S50000, .i1⟩
  | 95 => ⟨S_, .f32⟩
  | 96 => ⟨S50000, .f32⟩
  | 97 => ⟨S50000, .f32⟩
  | 98 => ⟨S_, .f32⟩
  | 99 => ⟨S_, .f32⟩
  | 100 => ⟨S50000, .f32⟩
  | 101 => ⟨S50000, .f32⟩
  | 102 => ⟨S_, .f32⟩
  | 103 => ⟨S50000, .f32⟩
  | 104 => ⟨S50000, .i1⟩
  | 105 => ⟨S_, .f32⟩
  | 106 => ⟨S50000, .f32⟩
  | 107 => ⟨S50000, .f32⟩
  | 108 => ⟨S_, .f32⟩
  | 109 => ⟨S_, .f32⟩
  | 110 => ⟨S50000, .f32⟩
  | 111 => ⟨S50000, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x64, .f32⟩
  | 121 => ⟨S_, .f32⟩
  | 122 => ⟨S50000x64, .f32⟩
  | 123 => ⟨S800000x1, .i32⟩
  | 124 => ⟨S50000x64, .f32⟩
  | 125 => ⟨S50000x1, .f32⟩
  | 126 => ⟨S50000x64, .f32⟩
  | 127 => ⟨S50000x64, .f32⟩
  | _ => ⟨S50000x256, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x64, .f32⟩
  | 9 => ⟨S_, .f32⟩
  | 10 => ⟨S50000x64, .f32⟩
  | 11 => ⟨S800000x1, .i32⟩
  | 12 => ⟨S50000x64, .f32⟩
  | 13 => ⟨S50000x1, .f32⟩
  | 14 => ⟨S50000x64, .f32⟩
  | 15 => ⟨S50000x64, .f32⟩
  | 16 => ⟨S1x64, .f32⟩
  | 17 => ⟨S50000x64, .f32⟩
  | 18 => ⟨S50000x64, .f32⟩
  | 19 => ⟨S_, .f32⟩
  | 20 => ⟨S50000x64, .f32⟩
  | 21 => ⟨S50000x64, .f32⟩
  | 22 => ⟨S50000x64, .f32⟩
  | 23 => ⟨S1x64, .f32⟩
  | 24 => ⟨S50000x64, .f32⟩
  | 25 => ⟨S50000x64, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_v20 : Ref sig .tc := ⟨.hbm, 38, rfl⟩
abbrev main_cst_7 : Ref sig .tc := ⟨.hbm, 39, rfl⟩
abbrev main_call1_v0 : Ref sig .tc := ⟨.hbm, 40, rfl⟩
abbrev main_call1_v1 : Ref sig .tc := ⟨.hbm, 41, rfl⟩
abbrev main_v21 : Ref sig .tc := ⟨.hbm, 42, rfl⟩
abbrev main_c : Ref sig .tc := ⟨.hbm, 43, rfl⟩
abbrev main_v22 : Ref sig .tc := ⟨.hbm, 44, rfl⟩
abbrev main_v23 : Ref sig .tc := ⟨.hbm, 45, rfl⟩
abbrev main_c_8 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_9 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_10 : Ref sig .tc := ⟨.hbm, 59, rfl⟩
abbrev main_v35 : Ref sig .tc := ⟨.hbm, 60, rfl⟩
abbrev main_v36 : Ref sig .tc := ⟨.hbm, 61, rfl⟩
abbrev main_c_11 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_12 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_call2_cst : Ref sig .tc := ⟨.hbm, 78, rfl⟩
abbrev main_call2_v0 : Ref sig .tc := ⟨.hbm, 79, rfl⟩
abbrev main_v51 : Ref sig .tc := ⟨.hbm, 80, rfl⟩
abbrev main_v52 : Ref sig .tc := ⟨.hbm, 81, rfl⟩
abbrev main_cst_13 : Ref sig .tc := ⟨.hbm, 82, rfl⟩
abbrev main_v53 : Ref sig .tc := ⟨.hbm, 83, rfl⟩
abbrev main_cst_14 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_15 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_16 : Ref sig .tc := ⟨.hbm, 92, rfl⟩
abbrev main_v60 : Ref sig .tc := ⟨.hbm, 93, rfl⟩
abbrev main_v61 : Ref sig .tc := ⟨.hbm, 94, rfl⟩
abbrev main_cst_17 : Ref sig .tc := ⟨.hbm, 95, rfl⟩
abbrev main_v62 : Ref sig .tc := ⟨.hbm, 96, rfl⟩
abbrev main_v63 : Ref sig .tc := ⟨.hbm, 97, rfl⟩
abbrev main_cst_18 : Ref sig .tc := ⟨.hbm, 98, rfl⟩
abbrev main_call3_v0 : Ref sig .tc := ⟨.hbm, 99, rfl⟩
abbrev main_call3_v1 : Ref sig .tc := ⟨.hbm, 100, rfl⟩
abbrev main_v64 : Ref sig .tc := ⟨.hbm, 101, rfl⟩
abbrev main_cst_19 : Ref sig .tc := ⟨.hbm, 102, rfl⟩
abbrev main_v65 : Ref sig .tc := ⟨.hbm, 103, rfl⟩
abbrev main_v66 : Ref sig .tc := ⟨.hbm, 104, rfl⟩
abbrev main_cst_20 : Ref sig .tc := ⟨.hbm, 105, rfl⟩
abbrev main_v67 : Ref sig .tc := ⟨.hbm, 106, rfl⟩
abbrev main_v68 : Ref sig .tc := ⟨.hbm, 107, rfl⟩
abbrev main_cst_21 : Ref sig .tc := ⟨.hbm, 108, rfl⟩
abbrev main_call4_v0 : Ref sig .tc := ⟨.hbm, 109, rfl⟩
abbrev main_call4_v1 : Ref sig .tc := ⟨.hbm, 110, rfl⟩
abbrev main_v69 : Ref sig .tc := ⟨.hbm, 111, rfl⟩
abbrev main_c_22 : Ref sig .tc := ⟨.hbm, 112, rfl⟩
abbrev main_v70 : Ref sig .tc := ⟨.hbm, 113, rfl⟩
abbrev main_v71 : Ref sig .tc := ⟨.hbm, 114, rfl⟩
abbrev main_c_23 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_cst_24 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_c_25 : Ref sig .tc := ⟨.hbm, 128, rfl⟩
abbrev main_v83 : Ref sig .tc := ⟨.hbm, 129, rfl⟩
abbrev main_v84 : Ref sig .tc := ⟨.hbm, 130, rfl⟩
abbrev main_c_26 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_cst_27 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_call5_cst : Ref sig .tc := ⟨.hbm, 147, rfl⟩
abbrev main_call5_v0 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x256_S256x128_S50000x128_1_0_0_1_n_n_wf : DotDims.WF S50000x256 S256x128 S50000x128 [1] [0] [0] [1] [] []
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.HostStages.lean ====
import proofs.«125717_j69990787055765_1_alg».proof.Proof.Gen.KernelIdeal

/-!
# The host-side stages shared by both programs

A hypergraph convolution sends node features `x` through two hops over the incidence list `(node k, edge k)`,
`k < 800000`: first every hyperedge `e` collects `Σ_{k : edge k = e} x (node k)` and scales it by `1 / |e|`
(zero for an empty hyperedge), then every node `v` collects `Σ_{k : node k = v} m (edge k)` and scales it by
`1 / deg v` (zero for an isolated node). One hop is a row gather at the (wrapped) source indices, a scatter-add
into zeros at the destination indices, and a product with the reciprocal counts repeated along the feature axis.
Each stage is named here once as a function of its operands; nothing below ever opens a gather or a scatter.
-/

noncomputable section

namespace Cert.KernelIdeal.Stage

open Cert.KernelIdeal Cert.KernelIdeal.Gen Idealize.ShloMosaic

variable {F : FTy → Type} [FloatOps F]

/-- Row 0 of the incidence list: the node of each incidence. -/
def nodeRow (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- Row 1 of the incidence list: the hyperedge of each incidence. -/
def edgeRow (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- How often each of the 50000 targets occurs among the indices: ones scatter-added into zeros. -/
def count (idx : (⟨S800000, .i32⟩ : BufTy).Contents (Elt F)) : (⟨S50000, .f32⟩ : BufTy).Contents (Elt F) :=
  Host.scatterAdd scatter_S50000_S800000x1_S800000_n_0_0_1 (broadcastInDim S50000 ![] bcast_S_S50000 (constant S_ .f32 0x00000000#32)) (broadcastInDim S800000x1 ![0] bcast_S800000_S800000x1_0 idx) (broadcastInDim S800000 ![] bcast_S_S800000 (constant S_ .f32 0x3F800000#32))

/-- The reciprocal count `1 / n` where `n > 0`, zero elsewhere. -/
def invCount (idx : (⟨S800000, .i32⟩ : BufTy).Contents (Elt F)) : (⟨S50000, .f32⟩ : BufTy).Contents (Elt F) :=
  select (cmpf .ogt (count idx) (broadcastInDim S50000 ![] bcast_S_S50000 (constant S_ .f32 0x00000000#32))) (Host.divf (broadcastInDim S50000 ![] bcast_S_S50000 (constant S_ .f32 0x3F800000#32)) (count idx)) (broadcastInDim S50000 ![] bcast_S_S50000 (id (constant S_ .f32 0x00000000#32)))

/-- Negative indices count from the end: `i + 50000` where `i < 0`. -/
def wrap (idx : (⟨S800000, .i32⟩ : BufTy).Contents (Elt F)) : (⟨S800000, .i32⟩ : BufTy).Contents (Elt F) :=
  select (cmpi .slt idx (broadcastInDim S800000 ![] bcast_S_S800000 (constantI S_ 32 0#32))) (addi idx (broadcastInDim S800000 ![] bcast_S_S800000 (constantI S_ 32 50000#32))) idx

/-- One hop at 128 features: rows gathered at `src`, scatter-added at `dst`, each target row scaled by `w`. -/
def hop128 (src dst : (⟨S800000, .i32⟩ : BufTy).Contents (Elt F)) (w : (⟨S50000, .f32⟩ : BufTy).Contents (Elt F))
    (x : (⟨S50000x128, .f32⟩ : BufTy).Contents (Elt F)) : (⟨S50000x128, .f32⟩ : BufTy).Contents (Elt F) :=
  mulf (Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (Host.gather gather_S50000x128_S800000x1_S800000x128_1_0_n_n_0_1_1128 x (broadcastInDim S800000x1 ![0] bcast_S800000_S800000x1_0 (wrap src)))) (broadcastInDim S50000x128 ![0, 1] bcast_S50000x1_S50000x128_0_1 (broadcastInDim S50000x1 ![0] bcast_S50000_S50000x1_0 w))

/-- One hop at 64 features. -/
def hop64 (src dst : (⟨S800000, .i32⟩ : BufTy).Contents (Elt F)) (w : (⟨S50000, .f32⟩ : BufTy).Contents (Elt F))
    (x : (⟨S50000x64, .f32⟩ : BufTy).Contents (Elt F)) : (⟨S50000x64, .f32⟩ : BufTy).Contents (Elt F) :=
  mulf (Host.scatterAdd scatter_S50000x64_S800000x1_S800000x64_1_0_0_1 (broadcastInDim S50000x64 ![] bcast_S_S50000x64 (constant S_ .f32 0x00000000#32)) (broadcastInDim S800000x1 ![0] bcast_S800000_S800000x1_0 dst) (Host.gather gather_S50000x64_S800000x1_S800000x64_1_0_n_n_0_1_164 x (broadcastInDim S800000x1 ![0] bcast_S800000_S800000x1_0 (wrap src)))) (broadcastInDim S50000x64 ![0, 1] bcast_S50000x1_S50000x64_0_1 (broadcastInDim S50000x1 ![0] bcast_S50000_S50000x1_0 w))

/-- Both hops at 128 features: nodes to hyperedges (scaled by the reciprocal hyperedge sizes), then hyperedges back
    to nodes (scaled by the reciprocal node degrees). -/
def agg128 (e : (⟨S2x800000, .i32⟩ : BufTy).Contents (Elt F)) (x : (⟨S50000x128, .f32⟩ : BufTy).Contents (Elt F)) :
    (⟨S50000x128, .f32⟩ : BufTy).Contents (Elt F) :=
  hop128 (edgeRow e) (nodeRow e) (invCount (nodeRow e)) (hop128 (nodeRow e) (edgeRow e) (invCount (edgeRow e)) x)

/-- Both hops at 64 features. -/
def agg64 (e : (⟨S2x800000, .i32⟩ : BufTy).Contents (Elt F)) (x : (⟨S50000x64, .f32⟩ : BufTy).Contents (Elt F)) :
    (⟨S50000x64, .f32⟩ : BufTy).Contents (Elt F) :=
  hop64 (edgeRow e) (nodeRow e) (invCount (nodeRow e)) (hop64 (nodeRow e) (edgeRow e) (invCount (edgeRow e)) x)

end Cert.KernelIdeal.Stage

end
-- ==== Proof.LibPlainMatmul.lean ====
import Idealize.ShloMosaic.PureOps.Ideal.Laws
import Idealize.ShloMosaic.Lib.ValueIdx

/-!
# A rows-by-columns matrix product into a zero accumulator, read at one entry

For the plain dimension numbers (`DotDims.plain M K N`: an `M × K` matrix times a `K × N` matrix, no batch axis) the
entry `(r, n)` of the product over the extended reals is `Σₖ lhs (r, k) · rhs (k, n)`.
-/

noncomputable section

namespace Idealize.ShloMosaic.PlainMatmul

open Idealize.ShloMosaic Idealize.ShloMosaic.ValueIdx

/-- The left operand's row coordinate at an output index is the output's row. -/
theorem lhs_plain_0 (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contracted coordinate. -/
theorem lhs_plain_1 (M K N : Nat) (j : (⟨2, ![M, N]⟩ : Shape).Idx) (q : (DotDims.plain M K N).contr.Idx) :
    ((DotDims.plain M K N).lhsIdx j q 1).val = (q ⟨0, Nat.zero_lt_one⟩).val :=
  (DotDims.plain M K N).lhsIdx_val_of_single rfl j q

/-- The right operand's row coordinate is the contracted coordinate. -/
theorem rhs_plain_0 (M K N : Nat) (j : (⟨2, ![M, N]⟩ : Shape).Idx) (q : (DotDims.plain M K N).contr.Idx) :
    ((DotDims.plain M K N).rhsIdx j q 0).val = (q ⟨0, Nat.zero_lt_one⟩).val :=
  (DotDims.plain M K N).rhsIdx_val_of_single rfl j q

/-- The right operand's column coordinate at an output index is the output's column. -/
theorem rhs_plain_1 (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The matrix unit's product with plain dimension numbers into the zero splat, at the entry `(r, n)`: the sum over the
    contracted coordinate `k` of `lhs (r, k) · rhs (k, n)`. -/
theorem matmul_plain_zero_apply (M K N : Nat) {φ₁ φ₂ : FTy} (prec : Option ContractPrecision)
    (lhs : FVec Ideal ⟨2, ![M, K]⟩ φ₁) (rhs : FVec Ideal ⟨2, ![K, N]⟩ φ₂) (r : Fin M) (n : Fin N) :
    FloatOps.matmul (DotDims.plain M K N) prec lhs rhs (constant ⟨2, ![M, N]⟩ .f32 0x00000000#32) (ix2 r n)
      = ∑ k : Fin K, lhs (ix2 r k) * rhs (ix2 k n) := by
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r n) ((ValueIdx.contrEquiv1 (DotDims.plain M K N) K rfl rfl).symm k)
      = ix2 r k := funext fun a => Fin.ext (by
    match a with
    | ⟨0, _⟩ => exact lhs_plain_0 M K N _ _
    | ⟨1, _⟩ => exact (lhs_plain_1 M K N _ _).trans hk)
  have er : (DotDims.plain M K N).rhsIdx (ix2 r n) ((ValueIdx.contrEquiv1 (DotDims.plain M K N) K rfl rfl).symm k)
      = ix2 k n := funext fun a => Fin.ext (by
    match a with
    | ⟨0, _⟩ => exact (rhs_plain_0 M K N _ _).trans hk
    | ⟨1, _⟩ => exact rhs_plain_1 M K N _ _)
  rw [el, er]

end Idealize.ShloMosaic.PlainMatmul

end
-- ==== Proof.LibPlainDot.lean ====
import Idealize.ShloMosaic.PureOps.Ideal.Laws
import Idealize.ShloMosaic.Lib.ValueIdx
import proofs.«125717_j69990787055765_1_alg».proof.Proof.LibPlainMatmul

/-!
# The host's rows-by-columns matrix product, read at one entry

For the plain dimension numbers (`DotDims.plain M K N`: an `M × K` matrix times a `K × N` matrix, no batch axis) the
entry `(r, n)` of the host's `dot_general` over the extended reals is `Σₖ lhs (r, k) · rhs (k, n)`, whatever the
precision and the schedule key: the same sum the matrix unit's product into a zero accumulator has there.
-/

noncomputable section

namespace Idealize.ShloMosaic.PlainDot

open Idealize.ShloMosaic Idealize.ShloMosaic.ValueIdx Idealize.ShloMosaic.PlainMatmul

/-- The sum over the one contracted axis of a plain product at the entry `(r, n)`, re-indexed by the contracted
    coordinate itself. -/
theorem plain_contraction (M K N : Nat) {φ₁ φ₂ : FTy} (lhs : FVec Ideal ⟨2, ![M, K]⟩ φ₁) (rhs : FVec Ideal ⟨2, ![K, N]⟩ φ₂)
    (r : Fin M) (n : Fin N) :
    (∑ q : (DotDims.plain M K N).contr.Idx,
        lhs ((DotDims.plain M K N).lhsIdx (ix2 r n) q) * rhs ((DotDims.plain M K N).rhsIdx (ix2 r n) q))
      = ∑ k : Fin K, lhs (ix2 r k) * rhs (ix2 k n) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r n) ((ValueIdx.contrEquiv1 (DotDims.plain M K N) K rfl rfl).symm k)
      = ix2 r k := funext fun a => Fin.ext (by
    match a with
    | ⟨0, _⟩ => exact lhs_plain_0 M K N _ _
    | ⟨1, _⟩ => exact (lhs_plain_1 M K N _ _).trans hk)
  have er : (DotDims.plain M K N).rhsIdx (ix2 r n) ((ValueIdx.contrEquiv1 (DotDims.plain M K N) K rfl rfl).symm k)
      = ix2 k n := funext fun a => Fin.ext (by
    match a with
    | ⟨0, _⟩ => exact (rhs_plain_0 M K N _ _).trans hk
    | ⟨1, _⟩ => exact rhs_plain_1 M K N _ _)
  rw [el, er]

/-- The host's product with plain dimension numbers at the entry `(r, n)`: the sum over the contracted coordinate `k`
    of `lhs (r, k) · rhs (k, n)`. -/
theorem dotGeneral_plain_apply (M K N : Nat) {φ₁ φ₂ : FTy} (prec : Option ContractPrecision) (sched : HostSchedule)
    (lhs : FVec Ideal ⟨2, ![M, K]⟩ φ₁) (rhs : FVec Ideal ⟨2, ![K, N]⟩ φ₂) (r : Fin M) (n : Fin N) :
    FloatOps.dotGeneral (DotDims.plain M K N) prec sched lhs rhs (ix2 r n)
      = ∑ k : Fin K, lhs (ix2 r k) * rhs (ix2 k n) := by
  rw [Ideal.dotGeneral_apply]
  exact plain_contraction M K N lhs rhs r n

end Idealize.ShloMosaic.PlainDot

end
-- ==== Proof.Layers.lean ====
import Idealize.ShloMosaic.PureOps.Ideal.Laws
import Idealize.ShloMosaic.Lib.ValueIdx
import Idealize.ShloMosaic.Lib.ValueLayout
import Idealize.ShloMosaic.Lib.Pipeline.Value
import proofs.«125717_j69990787055765_1_alg».proof.Proof.LibPlainMatmul
import proofs.«125717_j69990787055765_1_alg».proof.Proof.LibPlainDot

/-!
# The dense stages of the network, entry by entry

Over the extended reals the network's dense stages are three functions of whole arrays, read at an entry `(r, q)`:
the product of a matrix of rows with a weight matrix, `Σₖ x (r, k) · w (k, q)`; a bias added along the rows and the
sum clamped below by zero, `max (a (r, q) + b q) 0`; and a bias added along the rows, `a (r, q) + b q`. A bias comes
either as a vector `[N]` or laid out as one row `[1, N]`; the two spellings are the same function, and a zero bias
adds nothing. Each reads row `r` of its first operand only.
-/

noncomputable section

open scoped BigOperators

namespace Cert.Layers

open Idealize.ShloMosaic Idealize.ShloMosaic.ValueIdx

variable {R K N : Nat}

/-! ## The stages at an entry, and as arrays -/

/-- Rows times columns at `(r, q)`: `Σₖ x (r, k) · w (k, q)`. -/
def mmAt (x : (⟨2, ![R, K]⟩ : Shape).Idx → EReal) (w : (⟨2, ![K, N]⟩ : Shape).Idx → EReal) (r : Fin R) (q : Fin N) : EReal :=
  ∑ k : Fin K, x (ix2 r k) * w (ix2 k q)

/-- Rows times columns. -/
def mm (x : (⟨2, ![R, K]⟩ : Shape).Idx → EReal) (w : (⟨2, ![K, N]⟩ : Shape).Idx → EReal) :
    (⟨2, ![R, N]⟩ : Shape).Idx → EReal :=
  fun i => mmAt x w (i 0) (i 1)

/-- A bias vector added along every row, the sum clamped below by the float zero. -/
def biasRelu (a : (⟨2, ![R, N]⟩ : Shape).Idx → EReal) (b : (⟨1, ![N]⟩ : Shape).Idx → EReal) :
    (⟨2, ![R, N]⟩ : Shape).Idx → EReal :=
  fun i => max (a i + b (ix1 (i 1))) (Ideal.ofBits .f32 0x00000000#32)

/-- A bias vector added along every row. -/
def addBias (a : (⟨2, ![R, N]⟩ : Shape).Idx → EReal) (b : (⟨1, ![N]⟩ : Shape).Idx → EReal) :
    (⟨2, ![R, N]⟩ : Shape).Idx → EReal :=
  fun i => a i + b (ix1 (i 1))

/-- The same with the bias laid out as one row `[1, N]`. -/
def rowBiasRelu (a : (⟨2, ![R, N]⟩ : Shape).Idx → EReal) (b : (⟨2, ![1, N]⟩ : Shape).Idx → EReal) :
    (⟨2, ![R, N]⟩ : Shape).Idx → EReal :=
  fun i => max (a i + b (ix2 (0 : Fin 1) (i 1))) (Ideal.ofBits .f32 0x00000000#32)

/-- A bias row `[1, N]` added along every row. -/
def rowAddBias (a : (⟨2, ![R, N]⟩ : Shape).Idx → EReal) (b : (⟨2, ![1, N]⟩ : Shape).Idx → EReal) :
    (⟨2, ![R, N]⟩ : Shape).Idx → EReal :=
  fun i => a i + b (ix2 (0 : Fin 1) (i 1))

theorem mm_apply (x : (⟨2, ![R, K]⟩ : Shape).Idx → EReal) (w : (⟨2, ![K, N]⟩ : Shape).Idx → EReal) (r : Fin R) (q : Fin N) :
    mm x w (ix2 r q) = ∑ k : Fin K, x (ix2 r k) * w (ix2 k q) := rfl

theorem biasRelu_apply (a : (⟨2, ![R, N]⟩ : Shape).Idx → EReal) (b : (⟨1, ![N]⟩ : Shape).Idx → EReal) (r : Fin R) (q : Fin N) :
    biasRelu a b (ix2 r q) = max (a (ix2 r q) + b (ix1 q)) (Ideal.ofBits .f32 0x00000000#32) := rfl

theorem addBias_apply (a : (⟨2, ![R, N]⟩ : Shape).Idx → EReal) (b : (⟨1, ![N]⟩ : Shape).Idx → EReal) (r : Fin R) (q : Fin N) :
    addBias a b (ix2 r q) = a (ix2 r q) + b (ix1 q) := rfl

theorem rowBiasRelu_apply (a : (⟨2, ![R, N]⟩ : Shape).Idx → EReal) (b : (⟨2, ![1, N]⟩ : Shape).Idx → EReal) (r : Fin R) (q : Fin N) :
    rowBiasRelu a b (ix2 r q) = max (a (ix2 r q) + b (ix2 (0 : Fin 1) q)) (Ideal.ofBits .f32 0x00000000#32) := rfl

theorem rowAddBias_apply (a : (⟨2, ![R, N]⟩ : Shape).Idx → EReal) (b : (⟨2, ![1, N]⟩ : Shape).Idx → EReal) (r : Fin R) (q : Fin N) :
    rowAddBias a b (ix2 r q) = a (ix2 r q) + b (ix2 (0 : Fin 1) q) := rfl

/-! ## Each stage reads one row of its first operand -/

/-- The product at row `r` reads row `r` of the left operand and column `q` of the right one: operands of any numbers
    of rows that agree there give the same entry. -/
theorem mm_congr {R' : Nat} (x : (⟨2, ![R, K]⟩ : Shape).Idx → EReal) (x' : (⟨2, ![R', K]⟩ : Shape).Idx → EReal)
    (w w' : (⟨2, ![K, N]⟩ : Shape).Idx → EReal) (r : Fin R) (r' : Fin R') (q : Fin N)
    (h : ∀ k : Fin K, x (ix2 r k) = x' (ix2 r' k)) (hw : ∀ k : Fin K, w (ix2 k q) = w' (ix2 k q)) :
    mm x w (ix2 r q) = mm x' w' (ix2 r' q) := by
  rw [mm_apply, mm_apply]
  exact Finset.sum_congr rfl fun k _ => by rw [h k, hw k]

theorem rowBiasRelu_congr {R' : Nat} (a : (⟨2, ![R, N]⟩ : Shape).Idx → EReal) (a' : (⟨2, ![R', N]⟩ : Shape).Idx → EReal)
    (b b' : (⟨2, ![1, N]⟩ : Shape).Idx → EReal) (r : Fin R) (r' : Fin R') (q : Fin N)
    (h : a (ix2 r q) = a' (ix2 r' q)) (hb : b (ix2 (0 : Fin 1) q) = b' (ix2 (0 : Fin 1) q)) :
    rowBiasRelu a b (ix2 r q) = rowBiasRelu a' b' (ix2 r' q) := by
  rw [rowBiasRelu_apply, rowBiasRelu_apply, h, hb]

theorem rowAddBias_congr {R' : Nat} (a : (⟨2, ![R, N]⟩ : Shape).Idx → EReal) (a' : (⟨2, ![R', N]⟩ : Shape).Idx → EReal)
    (b b' : (⟨2, ![1, N]⟩ : Shape).Idx → EReal) (r : Fin R) (r' : Fin R') (q : Fin N)
    (h : a (ix2 r q) = a' (ix2 r' q)) (hb : b (ix2 (0 : Fin 1) q) = b' (ix2 (0 : Fin 1) q)) :
    rowAddBias a b (ix2 r q) = rowAddBias a' b' (ix2 r' q) := by
  rw [rowAddBias_apply, rowAddBias_apply, h, hb]

/-! ## A bias as a vector and as a row -/

/-- A bias vector viewed as one row is the same bias. -/
theorem rowBiasRelu_cast (a : (⟨2, ![R, N]⟩ : Shape).Idx → EReal) (b : (⟨1, ![N]⟩ : Shape).Idx → EReal)
    (h : (⟨1, ![N]⟩ : Shape).ShapeCasts ⟨2, ![1, N]⟩) : rowBiasRelu a (shapeCast ⟨2, ![1, N]⟩ b h) = biasRelu a b := by
  funext i
  obtain ⟨r, q, rfl⟩ : ∃ (r : Fin R) (q : Fin N), i = ix2 r q := ⟨i 0, i 1, eq_ix2 i⟩
  rw [rowBiasRelu_apply, biasRelu_apply, shapeCast_a_1a_apply]

theorem rowAddBias_cast (a : (⟨2, ![R, N]⟩ : Shape).Idx → EReal) (b : (⟨1, ![N]⟩ : Shape).Idx → EReal)
    (h : (⟨1, ![N]⟩ : Shape).ShapeCasts ⟨2, ![1, N]⟩) : rowAddBias a (shapeCast ⟨2, ![1, N]⟩ b h) = addBias a b := by
  funext i
  obtain ⟨r, q, rfl⟩ : ∃ (r : Fin R) (q : Fin N), i = ix2 r q := ⟨i 0, i 1, eq_ix2 i⟩
  rw [rowAddBias_apply, addBias_apply, shapeCast_a_1a_apply]

/-- A zero bias adds nothing. -/
theorem rowAddBias_zero (a : (⟨2, ![R, N]⟩ : Shape).Idx → EReal) (b : (⟨2, ![1, N]⟩ : Shape).Idx → EReal)
    (hb : ∀ j, b j = Ideal.ofBits .f32 0x00000000#32) : rowAddBias a b = a := by
  funext i
  obtain ⟨r, q, rfl⟩ : ∃ (r : Fin R) (q : Fin N), i = ix2 r q := ⟨i 0, i 1, eq_ix2 i⟩
  rw [rowAddBias_apply, hb, Ideal.ofBits_zero_f32, add_zero]

/-- The host's matrix product with plain dimension numbers is `mm`. -/
theorem dotGeneral_eq_mm (prec : Option ContractPrecision) (sched : HostSchedule)
    (x : FVec Ideal ⟨2, ![R, K]⟩ .f32) (w : FVec Ideal ⟨2, ![K, N]⟩ .f32) :
    FloatOps.dotGeneral (DotDims.plain R K N) prec sched x w = mm x w := by
  funext i
  obtain ⟨r, q, rfl⟩ : ∃ (r : Fin R) (q : Fin N), i = ix2 r q := ⟨i 0, i 1, eq_ix2 i⟩
  rw [PlainDot.dotGeneral_plain_apply, mm_apply]

end Cert.Layers

end
-- ==== Proof.LayerForms.lean ====
import proofs.«125717_j69990787055765_1_alg».proof.Proof.Layers

/-!
# The dense stages as the two programs spell them

On a block of `M` rows the kernel adds a bias ROW `[1, N]` repeated down the block and clamps below by zero, and
multiplies a block by a weight matrix into a zero accumulator and adds a bias row; the host lays a bias VECTOR `[N]`
out as a row, repeats the row, and takes the maximum against a repeated zero. Read at an entry these are the
functions of `Layers`.
-/

noncomputable section

open scoped BigOperators

namespace Cert.Layers

open Idealize.ShloMosaic Idealize.ShloMosaic.ValueIdx

variable {M R K N : Nat}

/-! ## On a block -/

/-- A bias row added down a block and the sum clamped below by zero, as a kernel body spells it. -/
def reluBlock (a : FVec Ideal ⟨2, ![M, N]⟩ .f32) (b : FVec Ideal ⟨2, ![1, N]⟩ .f32)
    (ha : (⟨2, ![M, N]⟩ : Shape).ShapeCasts ⟨2, ![M, N]⟩) (hb : (⟨2, ![1, N]⟩ : Shape).ShapeCasts ⟨2, ![1, N]⟩)
    (hbc : (⟨2, ![1, N]⟩ : Shape).Broadcasts ⟨2, ![M, N]⟩) : FVec Ideal ⟨2, ![M, N]⟩ .f32 :=
  maximumf (addf (shapeCast ⟨2, ![M, N]⟩ a ha) (broadcastTo ⟨2, ![M, N]⟩ (shapeCast ⟨2, ![1, N]⟩ b hb) hbc))
    (broadcast ⟨2, ![M, N]⟩ (Scalar.ofBits .f32 0x00000000#32))

theorem reluBlock_eq (a : FVec Ideal ⟨2, ![M, N]⟩ .f32) (b : FVec Ideal ⟨2, ![1, N]⟩ .f32)
    (ha : (⟨2, ![M, N]⟩ : Shape).ShapeCasts ⟨2, ![M, N]⟩) (hb : (⟨2, ![1, N]⟩ : Shape).ShapeCasts ⟨2, ![1, N]⟩)
    (hbc : (⟨2, ![1, N]⟩ : Shape).Broadcasts ⟨2, ![M, N]⟩) : reluBlock a b ha hb hbc = rowBiasRelu a b := by
  funext i
  obtain ⟨r, q, rfl⟩ : ∃ (r : Fin M) (q : Fin N), i = ix2 r q := ⟨i 0, i 1, eq_ix2 i⟩
  unfold reluBlock
  rw [shapeCast_self, shapeCast_self, rowBiasRelu_apply]
  show max (a (ix2 r q) + broadcastTo ⟨2, ![M, N]⟩ b hbc (ix2 r q)) _ = _
  rw [broadcastTo_1b_ab_apply]
  rfl

/-- A block times a weight matrix into a zero accumulator, plus a bias row repeated down the block. -/
def denseBlock (h : FVec Ideal ⟨2, ![M, K]⟩ .f32) (w : FVec Ideal ⟨2, ![K, N]⟩ .f32) (b : FVec Ideal ⟨2, ![1, N]⟩ .f32)
    (hb : (⟨2, ![1, N]⟩ : Shape).ShapeCasts ⟨2, ![1, N]⟩) (hbc : (⟨2, ![1, N]⟩ : Shape).Broadcasts ⟨2, ![M, N]⟩) :
    FVec Ideal ⟨2, ![M, N]⟩ .f32 :=
  addf (matmul (DotDims.plain M K N) none h w (constant ⟨2, ![M, N]⟩ .f32 0x00000000#32))
    (broadcastTo ⟨2, ![M, N]⟩ (shapeCast ⟨2, ![1, N]⟩ b hb) hbc)

theorem denseBlock_eq (h : FVec Ideal ⟨2, ![M, K]⟩ .f32) (w : FVec Ideal ⟨2, ![K, N]⟩ .f32) (b : FVec Ideal ⟨2, ![1, N]⟩ .f32)
    (hb : (⟨2, ![1, N]⟩ : Shape).ShapeCasts ⟨2, ![1, N]⟩) (hbc : (⟨2, ![1, N]⟩ : Shape).Broadcasts ⟨2, ![M, N]⟩) :
    denseBlock h w b hb hbc = rowAddBias (mm h w) b := by
  funext i
  obtain ⟨r, q, rfl⟩ : ∃ (r : Fin M) (q : Fin N), i = ix2 r q := ⟨i 0, i 1, eq_ix2 i⟩
  unfold denseBlock
  rw [shapeCast_self, rowAddBias_apply, mm_apply]
  show FloatOps.matmul (DotDims.plain M K N) none h w (constant ⟨2, ![M, N]⟩ .f32 0x00000000#32) (ix2 r q)
    + broadcastTo ⟨2, ![M, N]⟩ b hbc (ix2 r q) = _
  rw [PlainMatmul.matmul_plain_zero_apply, broadcastTo_1b_ab_apply]

/-! ## On the host -/

/-- A bias vector laid out as a row and the row repeated reads, at `(r, q)`, the vector at `q`. -/
theorem hostBias_apply (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) (q : Fin N) :
    broadcastInDim ⟨2, ![R, N]⟩ ![0, 1] h2 (broadcastInDim ⟨2, ![1, N]⟩ ![1] h1 b) (ix2 r q) = b (ix1 q) := by
  rw [broadcastInDim_apply ![0, 1] h2 _ (ix2 r q) (ix2 (0 : Fin 1) q) (fun a => by
    match a with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun a => by
    match a with
    | ⟨0, _⟩ =>
      show q.val = if N = 1 then 0 else q.val
      split
      · have := q.isLt; omega
      · rfl)

/-- The host's bias-and-clamp is `biasRelu`. -/
theorem host_biasRelu (A : FVec Ideal ⟨2, ![R, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1])
    (h0 : (⟨0, ![]⟩ : Shape).BroadcastsInDim ⟨2, ![R, N]⟩ ![]) :
    maximumf (addf A (broadcastInDim ⟨2, ![R, N]⟩ ![0, 1] h2 (broadcastInDim ⟨2, ![1, N]⟩ ![1] h1 b)))
      (broadcastInDim ⟨2, ![R, N]⟩ ![] h0 (constant ⟨0, ![]⟩ .f32 0x00000000#32)) = biasRelu A b := by
  funext i
  obtain ⟨r, q, rfl⟩ : ∃ (r : Fin R) (q : Fin N), i = ix2 r q := ⟨i 0, i 1, eq_ix2 i⟩
  rw [biasRelu_apply]
  show max (A (ix2 r q) + broadcastInDim ⟨2, ![R, N]⟩ ![0, 1] h2 (broadcastInDim ⟨2, ![1, N]⟩ ![1] h1 b) (ix2 r q)) _ = _
  rw [hostBias_apply]
  rfl

/-- The host's bias addition is `addBias`. -/
theorem host_addBias (A : FVec Ideal ⟨2, ![R, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) :
    addf A (broadcastInDim ⟨2, ![R, N]⟩ ![0, 1] h2 (broadcastInDim ⟨2, ![1, N]⟩ ![1] h1 b)) = addBias A b := by
  funext i
  obtain ⟨r, q, rfl⟩ : ∃ (r : Fin R) (q : Fin N), i = ix2 r q := ⟨i 0, i 1, eq_ix2 i⟩
  rw [addBias_apply]
  show A (ix2 r q) + broadcastInDim ⟨2, ![R, N]⟩ ![0, 1] h2 (broadcastInDim ⟨2, ![1, N]⟩ ![1] h1 b) (ix2 r q) = _
  rw [hostBias_apply]

end Cert.Layers

end
-- ==== Proof.Network.lean ====
import proofs.«125717_j69990787055765_1_alg».proof.Proof.HostStages
import proofs.«125717_j69990787055765_1_alg».proof.Proof.Layers

/-!
# The network as one function of its arguments

Two hypergraph convolutions and a linear read-out over the extended reals:
`features_1 = max (agg (x · W1) + b1) 0`, `features_2 = max (agg (features_1 · W2) + b2) 0`,
`z = features_2 · Wp + bp`, where `agg` is the two-hop aggregation over the incidence list. Both programs end at these
three arrays.
-/

noncomputable section

namespace Cert.Network

open Cert.KernelIdeal Cert.KernelIdeal.Stage Cert.Layers Idealize.ShloMosaic

/-- The first layer's features. -/
def features1 (x : S50000x256.Idx → EReal) (e : (⟨S2x800000, .i32⟩ : BufTy).Contents (Elt Ideal))
    (W1 : S256x128.Idx → EReal) (b1 : S128.Idx → EReal) : S50000x128.Idx → EReal :=
  biasRelu (R := 50000) (N := 128) (agg128 (F := Ideal) e (mm (R := 50000) (K := 256) (N := 128) x W1)) b1

/-- The second layer's features. -/
def features2 (x : S50000x256.Idx → EReal) (e : (⟨S2x800000, .i32⟩ : BufTy).Contents (Elt Ideal))
    (W1 : S256x128.Idx → EReal) (b1 : S128.Idx → EReal) (W2 : S128x64.Idx → EReal) (b2 : S64.Idx → EReal) :
    S50000x64.Idx → EReal :=
  biasRelu (R := 50000) (N := 64) (agg64 (F := Ideal) e (mm (R := 50000) (K := 128) (N := 64) (features1 x e W1 b1) W2)) b2

/-- The read-out. -/
def logits (x : S50000x256.Idx → EReal) (e : (⟨S2x800000, .i32⟩ : BufTy).Contents (Elt Ideal))
    (W1 : S256x128.Idx → EReal) (b1 : S128.Idx → EReal) (W2 : S128x64.Idx → EReal) (b2 : S64.Idx → EReal)
    (Wp : S64x64.Idx → EReal) (bp : S64.Idx → EReal) : S50000x64.Idx → EReal :=
  addBias (R := 50000) (N := 64) (mm (R := 50000) (K := 64) (N := 64) (features2 x e W1 b1 W2 b2) Wp) bp

end Cert.Network

end
-- ==== Proof.RefValue.lean ====
import proofs.«125717_j69990787055765_1_alg».proof.Proof.RefRun
import proofs.«125717_j69990787055765_1_alg».proof.Proof.Gen.KernelIdeal
import proofs.«125717_j69990787055765_1_alg».proof.Proof.HostStages
import proofs.«125717_j69990787055765_1_alg».proof.Proof.LayerForms
import proofs.«125717_j69990787055765_1_alg».proof.Proof.Network

/-!
# The reference's three results are the network

The reference's run states each result as one composed term of the arguments. Read in stages, the first features are the
host's bias-and-clamp of the two-hop aggregate of `x · W1`, the second features the same of the aggregate of
`features_1 · W2`, and the read-out `features_2 · Wp` plus the bias; the host's matrix products, bias repetitions and
clamps are the functions of `Layers`, so over the extended reals the three terms are `Network`'s.
-/

set_option maxRecDepth 16384

noncomputable section

namespace Cert.ReferenceIdeal.RefValue

open Cert.ReferenceIdeal Cert.ReferenceIdeal.Gen Cert.ReferenceIdeal.RunP
open Idealize.ShloMosaic Idealize.ShloMosaic.TcCoe Idealize.SL.Sem

/-! ## The composed terms in stages, for any float family -/

section Stages

variable {F : FTy → Type} [FloatOps F]
variable (m : (ℓ : Loc nD τ sig) → Buf (Elt F) ℓ) (c : Dev nD)

/-- The first features: the aggregate of `x · W1`, the first bias repeated along the rows, the clamp. -/
theorem res51_stages : res_main_v51 m c
    = maximumf (addf (Cert.KernelIdeal.Stage.agg128 (m ((c.tc : Thread nD τ).loc main_arg1))
          (Host.dotGeneral dot_S50000x256_S256x128_S50000x128_1_0_0_1_n_n none (m ((c.tc : Thread nD τ).loc main_arg0)) (m ((c.tc : Thread nD τ).loc main_arg2))))
        (broadcastInDim S50000x128 ![0, 1] bcast_S1x128_S50000x128_0_1 (broadcastInDim S1x128 ![1] bcast_S128_S1x128_1 (m ((c.tc : Thread nD τ).loc main_arg3)))))
      (broadcastInDim S50000x128 ![] bcast_S_S50000x128 (constant S_ .f32 0x00000000#32)) := by
  unfold res_main_v51
  rfl

/-- The second features: the aggregate of `features_1 · W2`, the second bias repeated along the rows, the clamp. -/
theorem res99_stages : res_main_v99 m c
    = maximumf (addf (Cert.KernelIdeal.Stage.agg64 (m ((c.tc : Thread nD τ).loc main_arg1))
          (Host.dotGeneral dot_S50000x128_S128x64_S50000x64_1_0_0_1_n_n none (res_main_v51 m c) (m ((c.tc : Thread nD τ).loc main_arg4))))
        (broadcastInDim S50000x64 ![0, 1] bcast_S1x64_S50000x64_0_1 (broadcastInDim S1x64 ![1] bcast_S64_S1x64_1 (m ((c.tc : Thread nD τ).loc main_arg5)))))
      (broadcastInDim S50000x64 ![] bcast_S_S50000x64 (constant S_ .f32 0x00000000#32)) := by
  unfold res_main_v99 res_main_v51
  rfl

/-- The read-out: `features_2 · Wp` and the last bias repeated along the rows. -/
theorem res103_stages : res_main_v103 m c
    = addf (Host.dotGeneral dot_S50000x64_S64x64_S50000x64_1_0_0_1_n_n none (res_main_v99 m c) (m ((c.tc : Thread nD τ).loc main_arg6)))
        (broadcastInDim S50000x64 ![0, 1] bcast_S1x64_S50000x64_0_1 (broadcastInDim S1x64 ![1] bcast_S64_S1x64_1 (m ((c.tc : Thread nD τ).loc main_arg7)))) := by
  unfold res_main_v103 res_main_v99
  rfl

end Stages

/-! ## Over the extended reals -/

variable (m : (ℓ : Loc nD τ sig) → Buf (Elt Ideal) ℓ) (c : Dev nD)

theorem dot1_eq (x : FVec Ideal S50000x256 .f32) (w : FVec Ideal S256x128 .f32) :
    Host.dotGeneral dot_S50000x256_S256x128_S50000x128_1_0_0_1_n_n none x w = Cert.Layers.mm (R := 50000) (K := 256) (N := 128) x w :=
  Cert.Layers.dotGeneral_eq_mm (R := 50000) (K := 256) (N := 128) none .single x w

theorem dot2_eq (x : FVec Ideal S50000x128 .f32) (w : FVec Ideal S128x64 .f32) :
    Host.dotGeneral dot_S50000x128_S128x64_S50000x64_1_0_0_1_n_n none x w = Cert.Layers.mm (R := 50000) (K := 128) (N := 64) x w :=
  Cert.Layers.dotGeneral_eq_mm (R := 50000) (K := 128) (N := 64) none .single x w

theorem dot3_eq (x : FVec Ideal S50000x64 .f32) (w : FVec Ideal S64x64 .f32) :
    Host.dotGeneral dot_S50000x64_S64x64_S50000x64_1_0_0_1_n_n none x w = Cert.Layers.mm (R := 50000) (K := 64) (N := 64) x w :=
  Cert.Layers.dotGeneral_eq_mm (R := 50000) (K := 64) (N := 64) none .single x w

/-- The reference's first features are the network's. -/
theorem features1_eq : res_main_v51 (F := Ideal) m c
    = Cert.Network.features1 (m ((c.tc : Thread nD τ).loc main_arg0)) (m ((c.tc : Thread nD τ).loc main_arg1))
        (m ((c.tc : Thread nD τ).loc main_arg2)) (m ((c.tc : Thread nD τ).loc main_arg3)) := by
  rw [res51_stages, dot1_eq]
  exact Cert.Layers.host_biasRelu (R := 50000) (N := 128) _ _ _ _ _

/-- The reference's second features are the network's. -/
theorem features2_eq : res_main_v99 (F := Ideal) m c
    = Cert.Network.features2 (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  rw [res99_stages, features1_eq, dot2_eq]
  exact Cert.Layers.host_biasRelu (R := 50000) (N := 64) _ _ _ _ _

/-- The reference's read-out is the network's. -/
theorem logits_eq : res_main_v103 (F := Ideal) m c
    = Cert.Network.logits (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)) := by
  rw [res103_stages, features2_eq, dot3_eq]
  exact Cert.Layers.host_addBias (R := 50000) (N := 64) _ _ _ _

end Cert.ReferenceIdeal.RefValue

end
-- ==== Proof.FoldHost.lean ====
import proofs.«125717_j69990787055765_1_alg».proof.Proof.Gen.KernelIdeal.Frame
import proofs.«125717_j69990787055765_1_alg».proof.Proof.HostStages

/-!
# The kernel program's host stretches, read

Between its three calls the kernel program runs the host stages of `HostStages`. Here each buffer a later call or the
result needs is read at every boundary of the run: what the first stretch computes from the incidence list (its two rows and
the two reciprocal counts), what the second and third stretches compute from a call's product (the two-hop aggregate) and
from the bias vectors (each laid out as a row), and which buffers a stretch or a call leaves alone.
-/

set_option maxRecDepth 16384

noncomputable section

namespace Cert.KernelIdeal.Fold

open Cert.KernelIdeal Cert.KernelIdeal.Gen Cert.KernelIdeal.Stage
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the first call -/

theorem W4_arg0 (c : Dev nD) : W4 m ρ c (Proc.devRef .tc main_arg0) = m ((c : Thread nD τ).loc main_arg0) := by
  after_results_simp <;> rfl
theorem W4_arg2 (c : Dev nD) : W4 m ρ c (Proc.devRef .tc main_arg2) = m ((c : Thread nD τ).loc main_arg2) := by
  after_results_simp <;> rfl
theorem W4_arg3 (c : Dev nD) : W4 m ρ c (Proc.devRef .tc main_arg3) = m ((c : Thread nD τ).loc main_arg3) := by
  after_results_simp <;> rfl
theorem W4_arg4 (c : Dev nD) : W4 m ρ c (Proc.devRef .tc main_arg4) = m ((c : Thread nD τ).loc main_arg4) := by
  after_results_simp <;> rfl
theorem W4_arg5 (c : Dev nD) : W4 m ρ c (Proc.devRef .tc main_arg5) = m ((c : Thread nD τ).loc main_arg5) := by
  after_results_simp <;> rfl
theorem W4_arg6 (c : Dev nD) : W4 m ρ c (Proc.devRef .tc main_arg6) = m ((c : Thread nD τ).loc main_arg6) := by
  after_results_simp <;> rfl
theorem W4_arg7 (c : Dev nD) : W4 m ρ c (Proc.devRef .tc main_arg7) = m ((c : Thread nD τ).loc main_arg7) := by
  after_results_simp <;> rfl

/-- The node row of the incidence list. -/
theorem W4_v1 (c : Dev nD) : W4 m ρ c (Proc.devRef .tc main_v1) = nodeRow (m ((c : Thread nD τ).loc main_arg1)) := by
  after_results_simp <;> rfl
/-- The hyperedge row of the incidence list. -/
theorem W4_v3 (c : Dev nD) : W4 m ρ c (Proc.devRef .tc main_v3) = edgeRow (m ((c : Thread nD τ).loc main_arg1)) := by
  after_results_simp <;> rfl
/-- The reciprocal node degrees. -/
theorem W4_v15 (c : Dev nD) :
    W4 m ρ c (Proc.devRef .tc main_v15) = invCount (nodeRow (m ((c : Thread nD τ).loc main_arg1))) := by
  after_results_simp <;> rfl
/-- The reciprocal hyperedge sizes. -/
theorem W4_v20 (c : Dev nD) :
    W4 m ρ c (Proc.devRef .tc main_v20) = invCount (edgeRow (m ((c : Thread nD τ).loc main_arg1))) := by
  after_results_simp <;> rfl

/-! ## The second stretch: from the first call's exit (`W5`) to the second call's entry (`W6`) -/

/-- The two-hop aggregate of the first call's product. -/
theorem W6_v47 (c : Dev nD) : W6 m ρ c (Proc.devRef .tc main_v47)
    = hop128 (W5 m ρ c (Proc.devRef .tc main_v3)) (W5 m ρ c (Proc.devRef .tc main_v1)) (W5 m ρ c (Proc.devRef .tc main_v15))
        (hop128 (W5 m ρ c (Proc.devRef .tc main_v1)) (W5 m ρ c (Proc.devRef .tc main_v3)) (W5 m ρ c (Proc.devRef .tc main_v20))
          (W5 m ρ c (Proc.devRef .tc main_v21))) := by
  after_results_simp <;> rfl
/-- The first bias vector laid out as a row. -/
theorem W6_v49 (c : Dev nD) : W6 m ρ c (Proc.devRef .tc main_v49)
    = shapeCast S1x128 (W5 m ρ c (Proc.devRef .tc main_arg3)) shapeCasts_S128_S1x128 := by
  after_results_simp <;> rfl
/-- A zero vector laid out as a row. -/
theorem W6_v50 (c : Dev nD) : W6 m ρ c (Proc.devRef .tc main_v50)
    = shapeCast S1x64 (broadcastInDim S64 ![] bcast_S_S64 (constant (F := F) S_ .f32 0x00000000#32)) shapeCasts_S64_S1x64 := by
  after_results_simp <;> rfl
theorem W6_arg4 (c : Dev nD) : W6 m ρ c (Proc.devRef .tc main_arg4) = W5 m ρ c (Proc.devRef .tc main_arg4) := by
  after_results_simp
theorem W6_arg5 (c : Dev nD) : W6 m ρ c (Proc.devRef .tc main_arg5) = W5 m ρ c (Proc.devRef .tc main_arg5) := by
  after_results_simp
theorem W6_arg6 (c : Dev nD) : W6 m ρ c (Proc.devRef .tc main_arg6) = W5 m ρ c (Proc.devRef .tc main_arg6) := by
  after_results_simp
theorem W6_arg7 (c : Dev nD) : W6 m ρ c (Proc.devRef .tc main_arg7) = W5 m ρ c (Proc.devRef .tc main_arg7) := by
  after_results_simp
theorem W6_v1 (c : Dev nD) : W6 m ρ c (Proc.devRef .tc main_v1) = W5 m ρ c (Proc.devRef .tc main_v1) := by
  after_results_simp
theorem W6_v3 (c : Dev nD) : W6 m ρ c (Proc.devRef .tc main_v3) = W5 m ρ c (Proc.devRef .tc main_v3) := by
  after_results_simp
theorem W6_v15 (c : Dev nD) : W6 m ρ c (Proc.devRef .tc main_v15) = W5 m ρ c (Proc.devRef .tc main_v15) := by
  after_results_simp
theorem W6_v20 (c : Dev nD) : W6 m ρ c (Proc.devRef .tc main_v20) = W5 m ρ c (Proc.devRef .tc main_v20) := by
  after_results_simp

/-! ## The third stretch: from the second call's exit (`W7`) to the third call's entry (`W8`) -/

/-- The two-hop aggregate of the second call's product. -/
theorem W8_v77 (c : Dev nD) : W8 m ρ c (Proc.devRef .tc main_v77)
    = hop64 (W7 m ρ c (Proc.devRef .tc main_v3)) (W7 m ρ c (Proc.devRef .tc main_v1)) (W7 m ρ c (Proc.devRef .tc main_v15))
        (hop64 (W7 m ρ c (Proc.devRef .tc main_v1)) (W7 m ρ c (Proc.devRef .tc main_v3)) (W7 m ρ c (Proc.devRef .tc main_v20))
          (W7 m ρ c (Proc.devRef .tc main_v51_1))) := by
  after_results_simp <;> rfl
/-- The second bias vector laid out as a row. -/
theorem W8_v78 (c : Dev nD) : W8 m ρ c (Proc.devRef .tc main_v78)
    = shapeCast S1x64 (W7 m ρ c (Proc.devRef .tc main_arg5)) shapeCasts_S64_S1x64 := by
  after_results_simp <;> rfl
/-- The read-out's bias vector laid out as a row. -/
theorem W8_v79 (c : Dev nD) : W8 m ρ c (Proc.devRef .tc main_v79)
    = shapeCast S1x64 (W7 m ρ c (Proc.devRef .tc main_arg7)) shapeCasts_S64_S1x64 := by
  after_results_simp <;> rfl
theorem W8_arg6 (c : Dev nD) : W8 m ρ c (Proc.devRef .tc main_arg6) = W7 m ρ c (Proc.devRef .tc main_arg6) := by
  after_results_simp
theorem W8_v51_0 (c : Dev nD) : W8 m ρ c (Proc.devRef .tc main_v51_0) = W7 m ρ c (Proc.devRef .tc main_v51_0) := by
  after_results_simp

end Cert.KernelIdeal.Fold

end
-- ==== Proof.Region0.lean ====
import proofs.«125717_j69990787055765_1_alg».proof.Proof.Gen.KernelIdeal.Frame
import Idealize.ShloMosaic.Lib.Pipeline.Value
import proofs.«125717_j69990787055765_1_alg».proof.Proof.Layers

/-!
# The first call: the node features times the first weight matrix

The call's grid has ten points; point `t` loads rows `5000 t … 5000 t + 4999` of the features and the whole weight
matrix, multiplies them into a zero accumulator and writes the product back as rows `5000 t … 5000 t + 4999` of the
result. Entry `(p, q)` of a block's product reads row `p` of the block only, so it is entry `(5000 t + p, q)` of
the product of the whole arrays; the ten blocks tile the result, which therefore ends at that product.
-/

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the features and the result move one block of rows per point, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `(p, q)` of the body's product on a block is entry `(r, q)` of the product of whole arrays whose row `r`
    is the block's row `p`. -/
theorem pay_eq_mm (x0 : Vec Ideal S5000x256 .f32) (x1 : Vec Ideal S256x128 .f32)
    (X : S50000x256.Idx → EReal) (W : S256x128.Idx → EReal) (p : Fin 5000) (q : Fin 128) (r : Fin 50000)
    (hx : ∀ k : Fin 256, x0 (ix2 p k) = X (ix2 r k)) (hw : ∀ k : Fin 256, x1 (ix2 k q) = W (ix2 k q)) :
    k0_pay1 x0 x1 (ix2 p q) = Cert.Layers.mm (R := 50000) (K := 256) (N := 128) X W (ix2 r q) := by
  unfold k0_pay1
  rw [Cert.Layers.mm_apply]
  refine (PlainMatmul.matmul_plain_zero_apply 5000 256 128 none x0 x1 p q).trans ?_
  exact Finset.sum_congr rfl fun k _ => by rw [hx k, hw k]

/-- What point `t` writes back is block `t` of the product of the arrays as the region finds them. -/
theorem flushed_eq (c : Dev nD) (t : Fin cfg0.N) :
    (dat0 V c).flushed 2 t = ((cfg0.win 2).blk t).view.read (Elt Ideal)
      (Cert.Layers.mm (R := 50000) (K := 256) (N := 128) (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨e0, e1, e2, e3, e4, e5⟩ := idx_facts t
  funext j
  have hj0 : (j 0).val < 5000 := (j 0).isLt
  have hj1 : (j 1).val < 128 := (j 1).isLt
  have ht : t.val < 10 := Nat.lt_of_lt_of_eq t.isLt N_0
  show k0_pay1 (iblk0 V c 0 t) (iblk0 V c 1 t) j
    = Cert.Layers.mm (R := 50000) (K := 256) (N := 128) (V c main_arg0) (V c main_arg2) (((cfg0.win 2).blk t).view.emb j)
  have hj : j = ix2 (⟨(j 0).val, hj0⟩ : Fin 5000) (⟨(j 1).val, hj1⟩ : Fin 128) :=
    funext fun a => by match a with | ⟨0, _⟩ => rfl | ⟨1, _⟩ => rfl
  have hi : ((cfg0.win 2).blk t).view.emb j
      = ix2 (⟨5000 * t.val + (j 0).val, by omega⟩ : Fin 50000) (⟨(j 1).val, hj1⟩ : Fin 128) := by
    funext a; apply Fin.ext
    match a with
    | ⟨0, _⟩ => show win0_2.index t (0 : Fin 2) * 5000 + 1 * (j 0).val = 5000 * t.val + (j 0).val; omega
    | ⟨1, _⟩ => show win0_2.index t (1 : Fin 2) * 128 + 1 * (j 1).val = (j 1).val; omega
  rw [hi]
  refine (congrArg (k0_pay1 (iblk0 V c 0 t) (iblk0 V c 1 t)) hj).trans ?_
  refine pay_eq_mm _ _ _ _ _ _ _ (fun k => ?_) (fun k => ?_)
  · show V c main_arg0 (((cfg0.win 0).blk t).view.emb (ix2 (⟨(j 0).val, hj0⟩ : Fin 5000) k)) = _
    refine congrArg (V c main_arg0) (funext fun a => Fin.ext ?_)
    match a with
    | ⟨0, _⟩ => show win0_0.index t (0 : Fin 2) * 5000 + 1 * (j 0).val = 5000 * t.val + (j 0).val; omega
    | ⟨1, _⟩ => show win0_0.index t (1 : Fin 2) * 256 + 1 * k.val = k.val; omega
  · show V c main_arg2 (((cfg0.win 1).blk t).view.emb (ix2 k (⟨(j 1).val, hj1⟩ : Fin 128))) = _
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 128 + 1 * (j 1).val = (j 1).val; omega

/-- An index of the result is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v21).slice (win0_2.rect t)).set ↔ _
  rw [View.set_slice_whole, Rect.mem_set_unit]
  exact Iff.rfl

/-- Row `r` of the result is written by point `r / 5000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 5000, by rw [show cfg0.N = 10 from N_0]; omega⟩
  obtain ⟨-, -, -, -, e4, e5⟩ := idx_facts t
  have htv : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region the result array holds the product of the features and the weights as the region found them. -/
theorem final (c : Dev nD) :
    (dat0 V c).arrAt 2 cfg0.N = Cert.Layers.mm (R := 50000) (K := 256) (N := 128) (V c main_arg0) (V c main_arg2) :=
  (dat0 V c).arrAt_eq_of_cover 2 _ (fun t _ => flushed_eq V c t) cover

end Cert.KernelIdeal.Region0

end
-- ==== Proof.Region1.lean ====
import proofs.«125717_j69990787055765_1_alg».proof.Proof.Gen.KernelIdeal.Frame
import Idealize.ShloMosaic.Lib.Pipeline.Value
import proofs.«125717_j69990787055765_1_alg».proof.Proof.LayerForms

/-!
# The second call: bias, clamp, and the next weight matrix

The call's grid has ten points; point `t` loads rows `5000 t … 5000 t + 4999` of the aggregated features, the two
bias rows and the whole weight matrix; it stores the block plus the input bias row clamped below by zero as rows
`5000 t … 5000 t + 4999` of the first result, and that block's product with the weights plus the output bias row as the
same rows of the second result. Every entry of a block's two values reads one row of the block, so it is the entry of the
same functions of the whole arrays at row `5000 t + p`; the ten blocks tile both results.
-/

noncomputable section

namespace Cert.KernelIdeal.Region1

open Cert.KernelIdeal Cert.KernelIdeal.Gen Idealize.ShloMosaic Idealize.ShloMosaic.TcCoe Idealize.SL.Sem
open Idealize.ShloMosaic.ValueIdx Cert.Layers
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the aggregate and the two results move one block of rows per point; the two bias
    rows and the weights stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-! ## The four input blocks at a point, each at its literal type, and the arrays they are cut from -/

abbrev aggBlk (c : Dev nD) (t : Fin cfg1.N) : Vec Ideal S5000x128 .f32 := iblk1 V c 0 t
abbrev binBlk (c : Dev nD) (t : Fin cfg1.N) : Vec Ideal S1x128 .f32 := iblk1 V c 1 t
abbrev wBlk (c : Dev nD) (t : Fin cfg1.N) : Vec Ideal S128x64 .f32 := iblk1 V c 2 t
abbrev boutBlk (c : Dev nD) (t : Fin cfg1.N) : Vec Ideal S1x64 .f32 := iblk1 V c 3 t
abbrev aggArr (c : Dev nD) : S50000x128.Idx → EReal := V c main_v47
abbrev binArr (c : Dev nD) : S1x128.Idx → EReal := V c main_v49
abbrev wArr (c : Dev nD) : S128x64.Idx → EReal := V c main_arg4
abbrev boutArr (c : Dev nD) : S1x64.Idx → EReal := V c main_v50

/-- Row `p` of the aggregate's block at point `t` is row `5000 t + p` of the aggregate. -/
theorem aggBlk_apply (c : Dev nD) (t : Fin cfg1.N) (p : Fin 5000) (k : Fin 128) (r : Fin 50000)
    (hr : r.val = 5000 * t.val + p.val) : aggBlk V c t (ix2 p k) = aggArr V c (ix2 r k) := by
  obtain ⟨e0, e1, -⟩ := idx_facts t
  show V c main_v47 (((cfg1.win 0).blk t).view.emb (ix2 p k)) = _
  refine congrArg (V c main_v47) (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The input bias row's block is the row. -/
theorem binBlk_apply (c : Dev nD) (t : Fin cfg1.N) (k : Fin 128) :
    binBlk V c t (ix2 (0 : Fin 1) k) = binArr V c (ix2 (0 : Fin 1) k) := by
  obtain ⟨-, -, e2, e3, -⟩ := idx_facts t
  show V c main_v49 (((cfg1.win 1).blk t).view.emb (ix2 (0 : Fin 1) k)) = _
  refine congrArg (V c main_v49) (funext fun a => Fin.ext ?_)
  match a with
  | ⟨0, _⟩ => show win1_1.index t (0 : Fin 2) * 1 + 1 * 0 = 0; omega
  | ⟨1, _⟩ => show win1_1.index t (1 : Fin 2) * 128 + 1 * k.val = k.val; omega

/-- The weights' block is the weight matrix. -/
theorem wBlk_apply (c : Dev nD) (t : Fin cfg1.N) (k : Fin 128) (q : Fin 64) :
    wBlk V c t (ix2 k q) = wArr V c (ix2 k q) := by
  obtain ⟨-, -, -, -, e4, e5, -⟩ := idx_facts t
  show V c main_arg4 (((cfg1.win 2).blk t).view.emb (ix2 k q)) = _
  refine congrArg (V c main_arg4) (funext fun a => Fin.ext ?_)
  match a with
  | ⟨0, _⟩ => show win1_2.index t (0 : Fin 2) * 128 + 1 * k.val = k.val; omega
  | ⟨1, _⟩ => show win1_2.index t (1 : Fin 2) * 64 + 1 * q.val = q.val; omega

/-- The output bias row's block is the row. -/
theorem boutBlk_apply (c : Dev nD) (t : Fin cfg1.N) (q : Fin 64) :
    boutBlk V c t (ix2 (0 : Fin 1) q) = boutArr V c (ix2 (0 : Fin 1) q) := by
  obtain ⟨-, -, -, -, -, -, e6, e7, -⟩ := idx_facts t
  show V c main_v50 (((cfg1.win 3).blk t).view.emb (ix2 (0 : Fin 1) q)) = _
  refine congrArg (V c main_v50) (funext fun a => Fin.ext ?_)
  match a with
  | ⟨0, _⟩ => show win1_3.index t (0 : Fin 2) * 1 + 1 * 0 = 0; omega
  | ⟨1, _⟩ => show win1_3.index t (1 : Fin 2) * 64 + 1 * q.val = q.val; omega

/-! ## The body's two stored values -/

/-- The first stored value: the block plus the bias row, clamped below by zero. -/
theorem pay1_eq (v0 : Vec Ideal S5000x128 .f32) (v2 : Vec Ideal S1x128 .f32) :
    k1_pay1 v0 v2 = rowBiasRelu (R := 5000) (N := 128) v0 v2 :=
  reluBlock_eq (M := 5000) (N := 128) v0 v2 shapeCasts_S5000x128_S5000x128 shapeCasts_S1x128_S1x128 broadcasts_S1x128_S5000x128

/-- The second stored value: the first times the weights, plus the output bias row. -/
theorem pay2_eq (v0 : Vec Ideal S5000x128 .f32) (v2 : Vec Ideal S1x128 .f32) (v9 : Vec Ideal S128x64 .f32) (v11 : Vec Ideal S1x64 .f32) :
    k1_pay2 v0 v2 v9 v11 = rowAddBias (mm (R := 5000) (K := 128) (N := 64) (rowBiasRelu (R := 5000) (N := 128) v0 v2) v9) v11 := by
  rw [← pay1_eq]
  exact denseBlock_eq (M := 5000) (K := 128) (N := 64) (k1_pay1 v0 v2) v9 v11 shapeCasts_S1x64_S1x64 broadcasts_S1x64_S5000x64

/-! ## What each point writes back -/

/-- Point `t` writes block `t` of the clamped, biased aggregate to the first result. -/
theorem flushed4_eq (c : Dev nD) (t : Fin cfg1.N) :
    (dat1 V c).flushed 4 t = ((cfg1.win 4).blk t).view.read (Elt Ideal)
      (rowBiasRelu (R := 50000) (N := 128) (aggArr V c) (binArr V c)) := by
  show (cfg1.win 4).cut (grid1.coords t) ((dat1 V c).after 4 t) = _
  rw [after1_4]
  unfold out1_4
  rw [View.canon_unit_zero hz]
  simp only [View.ld_unit_zero (S := S5000x128) hz, View.ld_unit_zero (S := S1x128) hz]
  rw [pay1_eq]
  obtain ⟨-, -, -, -, -, -, -, -, e8, e9, -⟩ := idx_facts t
  funext j
  have hj0 : (j 0).val < 5000 := (j 0).isLt
  have hj1 : (j 1).val < 128 := (j 1).isLt
  have ht : t.val < 10 := Nat.lt_of_lt_of_eq t.isLt N_1
  show rowBiasRelu (R := 5000) (N := 128) (aggBlk V c t) (binBlk V c t) j
    = rowBiasRelu (R := 50000) (N := 128) (aggArr V c) (binArr V c) (((cfg1.win 4).blk t).view.emb j)
  have hj : j = ix2 (⟨(j 0).val, hj0⟩ : Fin 5000) (⟨(j 1).val, hj1⟩ : Fin 128) :=
    funext fun a => by match a with | ⟨0, _⟩ => rfl | ⟨1, _⟩ => rfl
  have hi : ((cfg1.win 4).blk t).view.emb j
      = ix2 (⟨5000 * t.val + (j 0).val, by omega⟩ : Fin 50000) (⟨(j 1).val, hj1⟩ : Fin 128) := by
    funext a; apply Fin.ext
    match a with
    | ⟨0, _⟩ => show win1_4.index t (0 : Fin 2) * 5000 + 1 * (j 0).val = 5000 * t.val + (j 0).val; omega
    | ⟨1, _⟩ => show win1_4.index t (1 : Fin 2) * 128 + 1 * (j 1).val = (j 1).val; omega
  rw [hi]
  refine (congrArg (rowBiasRelu (R := 5000) (N := 128) (aggBlk V c t) (binBlk V c t)) hj).trans ?_
  exact rowBiasRelu_congr _ _ _ _ _ _ _ (aggBlk_apply V c t _ _ _ rfl) (binBlk_apply V c t _)

/-- Point `t` writes block `t` of the dense stage of that to the second result. -/
theorem flushed5_eq (c : Dev nD) (t : Fin cfg1.N) :
    (dat1 V c).flushed 5 t = ((cfg1.win 5).blk t).view.read (Elt Ideal)
      (rowAddBias (mm (R := 50000) (K := 128) (N := 64) (rowBiasRelu (R := 50000) (N := 128) (aggArr V c) (binArr V c)) (wArr V c)) (boutArr V c)) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz, View.ld_unit_zero (S := S128x64) hz,
    View.ld_unit_zero (S := S1x64) hz]
  rw [pay2_eq]
  obtain ⟨-, -, -, -, -, -, -, -, -, -, e10, e11⟩ := idx_facts t
  funext j
  have hj0 : (j 0).val < 5000 := (j 0).isLt
  have hj1 : (j 1).val < 64 := (j 1).isLt
  have ht : t.val < 10 := Nat.lt_of_lt_of_eq t.isLt N_1
  show rowAddBias (mm (R := 5000) (K := 128) (N := 64) (rowBiasRelu (R := 5000) (N := 128) (aggBlk V c t) (binBlk V c t)) (wBlk V c t)) (boutBlk V c t) j
    = rowAddBias (mm (R := 50000) (K := 128) (N := 64) (rowBiasRelu (R := 50000) (N := 128) (aggArr V c) (binArr V c)) (wArr V c)) (boutArr V c) (((cfg1.win 5).blk t).view.emb j)
  have hj : j = ix2 (⟨(j 0).val, hj0⟩ : Fin 5000) (⟨(j 1).val, hj1⟩ : Fin 64) :=
    funext fun a => by match a with | ⟨0, _⟩ => rfl | ⟨1, _⟩ => rfl
  have hi : ((cfg1.win 5).blk t).view.emb j
      = ix2 (⟨5000 * t.val + (j 0).val, by omega⟩ : Fin 50000) (⟨(j 1).val, hj1⟩ : Fin 64) := by
    funext a; apply Fin.ext
    match a with
    | ⟨0, _⟩ => show win1_5.index t (0 : Fin 2) * 5000 + 1 * (j 0).val = 5000 * t.val + (j 0).val; omega
    | ⟨1, _⟩ => show win1_5.index t (1 : Fin 2) * 64 + 1 * (j 1).val = (j 1).val; omega
  rw [hi]
  refine (congrArg (rowAddBias (mm (R := 5000) (K := 128) (N := 64) (rowBiasRelu (R := 5000) (N := 128) (aggBlk V c t) (binBlk V c t)) (wBlk V c t)) (boutBlk V c t)) hj).trans ?_
  refine rowAddBias_congr _ _ _ _ _ _ _ ?_ (boutBlk_apply V c t _)
  refine mm_congr _ _ _ _ _ _ _ (fun k => ?_) (fun k => wBlk_apply V c t k _)
  exact rowBiasRelu_congr _ _ _ _ _ _ _ (aggBlk_apply V c t _ _ _ rfl) (binBlk_apply V c t _)

/-! ## The blocks tile each result -/

theorem mem_blk4 (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v51_0).slice (win1_4.rect t)).set ↔ _
  rw [View.set_slice_whole, Rect.mem_set_unit]
  exact Iff.rfl

theorem mem_blk5 (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v51_1).slice (win1_5.rect t)).set ↔ _
  rw [View.set_slice_whole, Rect.mem_set_unit]
  exact Iff.rfl

/-- Row `r` of the first result is written by point `r / 5000`. -/
theorem cover4 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  let t : Fin cfg1.N := ⟨(i 0).val / 5000, by rw [show cfg1.N = 10 from N_1]; omega⟩
  obtain ⟨-, -, -, -, -, -, -, -, e8, e9, -⟩ := idx_facts t
  have htv : t.val = (i 0).val / 5000 := rfl
  refine ⟨t, flush1_4 t, ?_⟩
  rw [mem_blk4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- Row `r` of the second result is written by point `r / 5000`. -/
theorem cover5 (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  let t : Fin cfg1.N := ⟨(i 0).val / 5000, by rw [show cfg1.N = 10 from N_1]; omega⟩
  obtain ⟨-, -, -, -, -, -, -, -, -, -, e10, e11⟩ := idx_facts t
  have htv : t.val = (i 0).val / 5000 := rfl
  refine ⟨t, flush1_5 t, ?_⟩
  rw [mem_blk5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-! ## The two results after the region -/

/-- The first result ends at the aggregate plus the bias row, clamped below by zero. -/
theorem final4 (c : Dev nD) :
    (dat1 V c).arrAt 4 cfg1.N = rowBiasRelu (R := 50000) (N := 128) (aggArr V c) (binArr V c) :=
  (dat1 V c).arrAt_eq_of_cover 4 _ (fun t _ => flushed4_eq V c t) cover4

/-- The second result ends at that times the weights, plus the output bias row. -/
theorem final5 (c : Dev nD) :
    (dat1 V c).arrAt 5 cfg1.N = rowAddBias (mm (R := 50000) (K := 128) (N := 64)
      (rowBiasRelu (R := 50000) (N := 128) (aggArr V c) (binArr V c)) (wArr V c)) (boutArr V c) :=
  (dat1 V c).arrAt_eq_of_cover 5 _ (fun t _ => flushed5_eq V c t) cover5

end Cert.KernelIdeal.Region1

end
-- ==== Proof.Region2.lean ====
import proofs.«125717_j69990787055765_1_alg».proof.Proof.Gen.KernelIdeal.Frame
import Idealize.ShloMosaic.Lib.Pipeline.Value
import proofs.«125717_j69990787055765_1_alg».proof.Proof.LayerForms

/-!
# The third call: bias, clamp, and the read-out

The call's grid has ten points; point `t` loads rows `5000 t … 5000 t + 4999` of the aggregated features, the two
bias rows and the whole weight matrix; it stores the block plus the input bias row clamped below by zero as rows
`5000 t … 5000 t + 4999` of the first result, and that block's product with the weights plus the output bias row as the
same rows of the second result. Every entry of a block's two values reads one row of the block, so it is the entry of the
same functions of the whole arrays at row `5000 t + p`; the ten blocks tile both results.
-/

noncomputable section

namespace Cert.KernelIdeal.Region2

open Cert.KernelIdeal Cert.KernelIdeal.Gen Idealize.ShloMosaic Idealize.ShloMosaic.TcCoe Idealize.SL.Sem
open Idealize.ShloMosaic.ValueIdx Cert.Layers
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the aggregate and the two results move one block of rows per point; the two bias
    rows and the weights stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-! ## The four input blocks at a point, each at its literal type, and the arrays they are cut from -/

abbrev aggBlk (c : Dev nD) (t : Fin cfg2.N) : Vec Ideal S5000x64 .f32 := iblk2 V c 0 t
abbrev binBlk (c : Dev nD) (t : Fin cfg2.N) : Vec Ideal S1x64 .f32 := iblk2 V c 1 t
abbrev wBlk (c : Dev nD) (t : Fin cfg2.N) : Vec Ideal S64x64 .f32 := iblk2 V c 2 t
abbrev boutBlk (c : Dev nD) (t : Fin cfg2.N) : Vec Ideal S1x64 .f32 := iblk2 V c 3 t
abbrev aggArr (c : Dev nD) : S50000x64.Idx → EReal := V c main_v77
abbrev binArr (c : Dev nD) : S1x64.Idx → EReal := V c main_v78
abbrev wArr (c : Dev nD) : S64x64.Idx → EReal := V c main_arg6
abbrev boutArr (c : Dev nD) : S1x64.Idx → EReal := V c main_v79

/-- Row `p` of the aggregate's block at point `t` is row `5000 t + p` of the aggregate. -/
theorem aggBlk_apply (c : Dev nD) (t : Fin cfg2.N) (p : Fin 5000) (k : Fin 64) (r : Fin 50000)
    (hr : r.val = 5000 * t.val + p.val) : aggBlk V c t (ix2 p k) = aggArr V c (ix2 r k) := by
  obtain ⟨e0, e1, -⟩ := idx_facts t
  show V c main_v77 (((cfg2.win 0).blk t).view.emb (ix2 p k)) = _
  refine congrArg (V c main_v77) (funext fun a => Fin.ext ?_)
  match a with
  | ⟨0, _⟩ => show win2_0.index t (0 : Fin 2) * 5000 + 1 * p.val = r.val; omega
  | ⟨1, _⟩ => show win2_0.index t (1 : Fin 2) * 64 + 1 * k.val = k.val; omega

/-- The input bias row's block is the row. -/
theorem binBlk_apply (c : Dev nD) (t : Fin cfg2.N) (k : Fin 64) :
    binBlk V c t (ix2 (0 : Fin 1) k) = binArr V c (ix2 (0 : Fin 1) k) := by
  obtain ⟨-, -, e2, e3, -⟩ := idx_facts t
  show V c main_v78 (((cfg2.win 1).blk t).view.emb (ix2 (0 : Fin 1) k)) = _
  refine congrArg (V c main_v78) (funext fun a => Fin.ext ?_)
  match a with
  | ⟨0, _⟩ => show win2_1.index t (0 : Fin 2) * 1 + 1 * 0 = 0; omega
  | ⟨1, _⟩ => show win2_1.index t (1 : Fin 2) * 64 + 1 * k.val = k.val; omega

/-- The weights' block is the weight matrix. -/
theorem wBlk_apply (c : Dev nD) (t : Fin cfg2.N) (k : Fin 64) (q : Fin 64) :
    wBlk V c t (ix2 k q) = wArr V c (ix2 k q) := by
  obtain ⟨-, -, -, -, e4, e5, -⟩ := idx_facts t
  show V c main_arg6 (((cfg2.win 2).blk t).view.emb (ix2 k q)) = _
  refine congrArg (V c main_arg6) (funext fun a => Fin.ext ?_)
  match a with
  | ⟨0, _⟩ => show win2_2.index t (0 : Fin 2) * 64 + 1 * k.val = k.val; omega
  | ⟨1, _⟩ => show win2_2.index t (1 : Fin 2) * 64 + 1 * q.val = q.val; omega

/-- The output bias row's block is the row. -/
theorem boutBlk_apply (c : Dev nD) (t : Fin cfg2.N) (q : Fin 64) :
    boutBlk V c t (ix2 (0 : Fin 1) q) = boutArr V c (ix2 (0 : Fin 1) q) := by
  obtain ⟨-, -, -, -, -, -, e6, e7, -⟩ := idx_facts t
  show V c main_v79 (((cfg2.win 3).blk t).view.emb (ix2 (0 : Fin 1) q)) = _
  refine congrArg (V c main_v79) (funext fun a => Fin.ext ?_)
  match a with
  | ⟨0, _⟩ => show win2_3.index t (0 : Fin 2) * 1 + 1 * 0 = 0; omega
  | ⟨1, _⟩ => show win2_3.index t (1 : Fin 2) * 64 + 1 * q.val = q.val; omega

/-! ## The body's two stored values -/

/-- The first stored value: the block plus the bias row, clamped below by zero. -/
theorem pay1_eq (v0 : Vec Ideal S5000x64 .f32) (v2 : Vec Ideal S1x64 .f32) :
    k2_pay1 v0 v2 = rowBiasRelu (R := 5000) (N := 64) v0 v2 :=
  reluBlock_eq (M := 5000) (N := 64) v0 v2 shapeCasts_S5000x64_S5000x64 shapeCasts_S1x64_S1x64 broadcasts_S1x64_S5000x64

/-- The second stored value: the first times the weights, plus the output bias row. -/
theorem pay2_eq (v0 : Vec Ideal S5000x64 .f32) (v2 : Vec Ideal S1x64 .f32) (v9 : Vec Ideal S64x64 .f32) (v11 : Vec Ideal S1x64 .f32) :
    k2_pay2 v0 v2 v9 v11 = rowAddBias (mm (R := 5000) (K := 64) (N := 64) (rowBiasRelu (R := 5000) (N := 64) v0 v2) v9) v11 := by
  rw [← pay1_eq]
  exact denseBlock_eq (M := 5000) (K := 64) (N := 64) (k2_pay1 v0 v2) v9 v11 shapeCasts_S1x64_S1x64 broadcasts_S1x64_S5000x64

/-! ## What each point writes back -/

/-- Point `t` writes block `t` of the clamped, biased aggregate to the first result. -/
theorem flushed4_eq (c : Dev nD) (t : Fin cfg2.N) :
    (dat2 V c).flushed 4 t = ((cfg2.win 4).blk t).view.read (Elt Ideal)
      (rowBiasRelu (R := 50000) (N := 64) (aggArr V c) (binArr V c)) := by
  show (cfg2.win 4).cut (grid2.coords t) ((dat2 V c).after 4 t) = _
  rw [after2_4]
  unfold out2_4
  rw [View.canon_unit_zero hz]
  simp only [View.ld_unit_zero (S := S5000x64) hz, View.ld_unit_zero (S := S1x64) hz]
  rw [pay1_eq]
  obtain ⟨-, -, -, -, -, -, -, -, e8, e9, -⟩ := idx_facts t
  funext j
  have hj0 : (j 0).val < 5000 := (j 0).isLt
  have hj1 : (j 1).val < 64 := (j 1).isLt
  have ht : t.val < 10 := Nat.lt_of_lt_of_eq t.isLt N_2
  show rowBiasRelu (R := 5000) (N := 64) (aggBlk V c t) (binBlk V c t) j
    = rowBiasRelu (R := 50000) (N := 64) (aggArr V c) (binArr V c) (((cfg2.win 4).blk t).view.emb j)
  have hj : j = ix2 (⟨(j 0).val, hj0⟩ : Fin 5000) (⟨(j 1).val, hj1⟩ : Fin 64) :=
    funext fun a => by match a with | ⟨0, _⟩ => rfl | ⟨1, _⟩ => rfl
  have hi : ((cfg2.win 4).blk t).view.emb j
      = ix2 (⟨5000 * t.val + (j 0).val, by omega⟩ : Fin 50000) (⟨(j 1).val, hj1⟩ : Fin 64) := by
    funext a; apply Fin.ext
    match a with
    | ⟨0, _⟩ => show win2_4.index t (0 : Fin 2) * 5000 + 1 * (j 0).val = 5000 * t.val + (j 0).val; omega
    | ⟨1, _⟩ => show win2_4.index t (1 : Fin 2) * 64 + 1 * (j 1).val = (j 1).val; omega
  rw [hi]
  refine (congrArg (rowBiasRelu (R := 5000) (N := 64) (aggBlk V c t) (binBlk V c t)) hj).trans ?_
  exact rowBiasRelu_congr _ _ _ _ _ _ _ (aggBlk_apply V c t _ _ _ rfl) (binBlk_apply V c t _)

/-- Point `t` writes block `t` of the dense stage of that to the second result. -/
theorem flushed5_eq (c : Dev nD) (t : Fin cfg2.N) :
    (dat2 V c).flushed 5 t = ((cfg2.win 5).blk t).view.read (Elt Ideal)
      (rowAddBias (mm (R := 50000) (K := 64) (N := 64) (rowBiasRelu (R := 50000) (N := 64) (aggArr V c) (binArr V c)) (wArr V c)) (boutArr V c)) := by
  show (cfg2.win 5).cut (grid2.coords t) ((dat2 V c).after 5 t) = _
  rw [after2_5]
  unfold out2_5
  rw [View.canon_unit_zero hz]
  simp only [View.ld_unit_zero (S := S5000x64) hz, View.ld_unit_zero (S := S1x64) hz, View.ld_unit_zero (S := S64x64) hz,
    View.ld_unit_zero (S := S1x64) hz]
  rw [pay2_eq]
  obtain ⟨-, -, -, -, -, -, -, -, -, -, e10, e11⟩ := idx_facts t
  funext j
  have hj0 : (j 0).val < 5000 := (j 0).isLt
  have hj1 : (j 1).val < 64 := (j 1).isLt
  have ht : t.val < 10 := Nat.lt_of_lt_of_eq t.isLt N_2
  show rowAddBias (mm (R := 5000) (K := 64) (N := 64) (rowBiasRelu (R := 5000) (N := 64) (aggBlk V c t) (binBlk V c t)) (wBlk V c t)) (boutBlk V c t) j
    = rowAddBias (mm (R := 50000) (K := 64) (N := 64) (rowBiasRelu (R := 50000) (N := 64) (aggArr V c) (binArr V c)) (wArr V c)) (boutArr V c) (((cfg2.win 5).blk t).view.emb j)
  have hj : j = ix2 (⟨(j 0).val, hj0⟩ : Fin 5000) (⟨(j 1).val, hj1⟩ : Fin 64) :=
    funext fun a => by match a with | ⟨0, _⟩ => rfl | ⟨1, _⟩ => rfl
  have hi : ((cfg2.win 5).blk t).view.emb j
      = ix2 (⟨5000 * t.val + (j 0).val, by omega⟩ : Fin 50000) (⟨(j 1).val, hj1⟩ : Fin 64) := by
    funext a; apply Fin.ext
    match a with
    | ⟨0, _⟩ => show win2_5.index t (0 : Fin 2) * 5000 + 1 * (j 0).val = 5000 * t.val + (j 0).val; omega
    | ⟨1, _⟩ => show win2_5.index t (1 : Fin 2) * 64 + 1 * (j 1).val = (j 1).val; omega
  rw [hi]
  refine (congrArg (rowAddBias (mm (R := 5000) (K := 64) (N := 64) (rowBiasRelu (R := 5000) (N := 64) (aggBlk V c t) (binBlk V c t)) (wBlk V c t)) (boutBlk V c t)) hj).trans ?_
  refine rowAddBias_congr _ _ _ _ _ _ _ ?_ (boutBlk_apply V c t _)
  refine mm_congr _ _ _ _ _ _ _ (fun k => ?_) (fun k => wBlk_apply V c t k _)
  exact rowBiasRelu_congr _ _ _ _ _ _ _ (aggBlk_apply V c t _ _ _ rfl) (binBlk_apply V c t _)

/-! ## The blocks tile each result -/

theorem mem_blk4 (t : Fin cfg2.N) (i : S50000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v80_0).slice (win2_4.rect t)).set ↔ _
  rw [View.set_slice_whole, Rect.mem_set_unit]
  exact Iff.rfl

theorem mem_blk5 (t : Fin cfg2.N) (i : S50000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v80_1).slice (win2_5.rect t)).set ↔ _
  rw [View.set_slice_whole, Rect.mem_set_unit]
  exact Iff.rfl

/-- Row `r` of the first result is written by point `r / 5000`. -/
theorem cover4 (i : S50000x64.Idx) : ∃ t : Fin cfg2.N, (cfg2.win 4).flush t = true ∧ i ∈ ((cfg2.win 4).blk t).view.set := by
  have hi0 : (i 0).val < 50000 := (i 0).isLt
  have hi1 : (i 1).val < 64 := (i 1).isLt
  let t : Fin cfg2.N := ⟨(i 0).val / 5000, by rw [show cfg2.N = 10 from N_2]; omega⟩
  obtain ⟨-, -, -, -, -, -, -, -, e8, e9, -⟩ := idx_facts t
  have htv : t.val = (i 0).val / 5000 := rfl
  refine ⟨t, flush2_4 t, ?_⟩
  rw [mem_blk4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- Row `r` of the second result is written by point `r / 5000`. -/
theorem cover5 (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  let t : Fin cfg2.N := ⟨(i 0).val / 5000, by rw [show cfg2.N = 10 from N_2]; omega⟩
  obtain ⟨-, -, -, -, -, -, -, -, -, -, e10, e11⟩ := idx_facts t
  have htv : t.val = (i 0).val / 5000 := rfl
  refine ⟨t, flush2_5 t, ?_⟩
  rw [mem_blk5]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-! ## The two results after the region -/

/-- The first result ends at the aggregate plus the bias row, clamped below by zero. -/
theorem final4 (c : Dev nD) :
    (dat2 V c).arrAt 4 cfg2.N = rowBiasRelu (R := 50000) (N := 64) (aggArr V c) (binArr V c) :=
  (dat2 V c).arrAt_eq_of_cover 4 _ (fun t _ => flushed4_eq V c t) cover4

/-- The second result ends at that times the weights, plus the output bias row. -/
theorem final5 (c : Dev nD) :
    (dat2 V c).arrAt 5 cfg2.N = rowAddBias (mm (R := 50000) (K := 64) (N := 64)
      (rowBiasRelu (R := 50000) (N := 64) (aggArr V c) (binArr V c)) (wArr V c)) (boutArr V c) :=
  (dat2 V c).arrAt_eq_of_cover 5 _ (fun t _ => flushed5_eq V c t) cover5

end Cert.KernelIdeal.Region2

end
-- ==== Proof.FoldValue.lean ====
import proofs.«125717_j69990787055765_1_alg».proof.Proof.FoldHost
import proofs.«125717_j69990787055765_1_alg».proof.Proof.KernelNamed
import proofs.«125717_j69990787055765_1_alg».proof.Proof.Region0
import proofs.«125717_j69990787055765_1_alg».proof.Proof.Region1
import proofs.«125717_j69990787055765_1_alg».proof.Proof.Region2
import proofs.«125717_j69990787055765_1_alg».proof.Proof.Network

/-!
# The kernel program's three results are the network

Over the extended reals, boundary by boundary: the first call leaves `x · W1`; the second stretch aggregates it and lays
the first bias out as a row (and a zero vector as another); the second call leaves the first features and their product
with `W2` (the zero bias row adds nothing); the third stretch aggregates that product and lays the last two biases out as
rows; the third call leaves the second features and the read-out. A bias row cut from a vector is that vector's bias.
-/

set_option maxRecDepth 16384

noncomputable section

namespace Cert.KernelIdeal.Fold

open Cert.KernelIdeal Cert.KernelIdeal.Gen Cert.KernelIdeal.Stage Cert.Layers Cert.Network
open Idealize.ShloMosaic Idealize.ShloMosaic.TcCoe Idealize.SL.Sem

variable (m : (ℓ : Loc nD τ sig) → Buf (Elt Ideal) ℓ) (ρ : Dev nD → PrngReg)

/-! ## The arguments, each at its literal type -/

abbrev aX (c : Dev nD) : S50000x256.Idx → EReal := m ((c : Thread nD τ).loc main_arg0)
abbrev aE (c : Dev nD) : (⟨S2x800000, .i32⟩ : BufTy).Contents (Elt Ideal) := m ((c : Thread nD τ).loc main_arg1)
abbrev aW1 (c : Dev nD) : S256x128.Idx → EReal := m ((c : Thread nD τ).loc main_arg2)
abbrev aB1 (c : Dev nD) : S128.Idx → EReal := m ((c : Thread nD τ).loc main_arg3)
abbrev aW2 (c : Dev nD) : S128x64.Idx → EReal := m ((c : Thread nD τ).loc main_arg4)
abbrev aB2 (c : Dev nD) : S64.Idx → EReal := m ((c : Thread nD τ).loc main_arg5)
abbrev aWp (c : Dev nD) : S64x64.Idx → EReal := m ((c : Thread nD τ).loc main_arg6)
abbrev aBp (c : Dev nD) : S64.Idx → EReal := m ((c : Thread nD τ).loc main_arg7)

/-! ## After the first call (`W5`) -/

theorem W5_v21 (c : Dev nD) : W5 m ρ c (Proc.devRef .tc main_v21) = mm (R := 50000) (K := 256) (N := 128) (aX m c) (aW1 m c) :=
  (W5_arr m ρ c 2).trans ((Region0.final (V4 m ρ) c).trans
    (congrArg₂ (mm (R := 50000) (K := 256) (N := 128)) (W4_arg0 m ρ c) (W4_arg2 m ρ c)))
theorem W5_v1 (c : Dev nD) : W5 m ρ c (Proc.devRef .tc main_v1) = nodeRow (aE m c) :=
  (W5_of_ne m ρ c main_v1 (by decide)).trans (W4_v1 m ρ c)
theorem W5_v3 (c : Dev nD) : W5 m ρ c (Proc.devRef .tc main_v3) = edgeRow (aE m c) :=
  (W5_of_ne m ρ c main_v3 (by decide)).trans (W4_v3 m ρ c)
theorem W5_v15 (c : Dev nD) : W5 m ρ c (Proc.devRef .tc main_v15) = invCount (nodeRow (aE m c)) :=
  (W5_of_ne m ρ c main_v15 (by decide)).trans (W4_v15 m ρ c)
theorem W5_v20 (c : Dev nD) : W5 m ρ c (Proc.devRef .tc main_v20) = invCount (edgeRow (aE m c)) :=
  (W5_of_ne m ρ c main_v20 (by decide)).trans (W4_v20 m ρ c)
theorem W5_arg3 (c : Dev nD) : W5 m ρ c (Proc.devRef .tc main_arg3) = aB1 m c :=
  (W5_of_ne m ρ c main_arg3 (by decide)).trans (W4_arg3 m ρ c)
theorem W5_arg4 (c : Dev nD) : W5 m ρ c (Proc.devRef .tc main_arg4) = aW2 m c :=
  (W5_of_ne m ρ c main_arg4 (by decide)).trans (W4_arg4 m ρ c)
theorem W5_arg5 (c : Dev nD) : W5 m ρ c (Proc.devRef .tc main_arg5) = aB2 m c :=
  (W5_of_ne m ρ c main_arg5 (by decide)).trans (W4_arg5 m ρ c)
theorem W5_arg6 (c : Dev nD) : W5 m ρ c (Proc.devRef .tc main_arg6) = aWp m c :=
  (W5_of_ne m ρ c main_arg6 (by decide)).trans (W4_arg6 m ρ c)
theorem W5_arg7 (c : Dev nD) : W5 m ρ c (Proc.devRef .tc main_arg7) = aBp m c :=
  (W5_of_ne m ρ c main_arg7 (by decide)).trans (W4_arg7 m ρ c)

/-! ## At the second call's entry (`W6`) -/

/-- The aggregate of `x · W1`. -/
theorem W6_agg (c : Dev nD) : W6 m ρ c (Proc.devRef .tc main_v47)
    = agg128 (aE m c) (mm (R := 50000) (K := 256) (N := 128) (aX m c) (aW1 m c)) := by
  rw [W6_v47, W5_v1, W5_v3, W5_v15, W5_v20, W5_v21]
  rfl
theorem W6_bias (c : Dev nD) : W6 m ρ c (Proc.devRef .tc main_v49) = shapeCast S1x128 (aB1 m c) shapeCasts_S128_S1x128 := by
  rw [W6_v49, W5_arg3]
theorem W6_w (c : Dev nD) : W6 m ρ c (Proc.devRef .tc main_arg4) = aW2 m c := by rw [W6_arg4, W5_arg4]
theorem W6_node (c : Dev nD) : W6 m ρ c (Proc.devRef .tc main_v1) = nodeRow (aE m c) := by rw [W6_v1, W5_v1]
theorem W6_edge (c : Dev nD) : W6 m ρ c (Proc.devRef .tc main_v3) = edgeRow (aE m c) := by rw [W6_v3, W5_v3]
theorem W6_dinv (c : Dev nD) : W6 m ρ c (Proc.devRef .tc main_v15) = invCount (nodeRow (aE m c)) := by rw [W6_v15, W5_v15]
theorem W6_binv (c : Dev nD) : W6 m ρ c (Proc.devRef .tc main_v20) = invCount (edgeRow (aE m c)) := by rw [W6_v20, W5_v20]
theorem W6_b2 (c : Dev nD) : W6 m ρ c (Proc.devRef .tc main_arg5) = aB2 m c := by rw [W6_arg5, W5_arg5]
theorem W6_wp (c : Dev nD) : W6 m ρ c (Proc.devRef .tc main_arg6) = aWp m c := by rw [W6_arg6, W5_arg6]
theorem W6_bp (c : Dev nD) : W6 m ρ c (Proc.devRef .tc main_arg7) = aBp m c := by rw [W6_arg7, W5_arg7]

/-! ## After the second call (`W7`) -/

/-- The first features. -/
theorem W7_h1 (c : Dev nD) : W7 m ρ c (Proc.devRef .tc main_v51_0) = features1 (aX m c) (aE m c) (aW1 m c) (aB1 m c) := by
  refine (W7_arr m ρ c 4).trans ((Region1.final4 (V6 m ρ) c).trans ?_)
  show rowBiasRelu (R := 50000) (N := 128) (W6 m ρ c (Proc.devRef .tc main_v47)) (W6 m ρ c (Proc.devRef .tc main_v49))
    = biasRelu (R := 50000) (N := 128) (agg128 (aE m c) (mm (R := 50000) (K := 256) (N := 128) (aX m c) (aW1 m c))) (aB1 m c)
  rw [W6_agg, W6_bias, rowBiasRelu_cast]

/-- The first features times `W2`: the zero bias row adds nothing. -/
theorem W7_xw2 (c : Dev nD) : W7 m ρ c (Proc.devRef .tc main_v51_1)
    = mm (R := 50000) (K := 128) (N := 64) (features1 (aX m c) (aE m c) (aW1 m c) (aB1 m c)) (aW2 m c) := by
  refine (W7_arr m ρ c 5).trans ((Region1.final5 (V6 m ρ) c).trans ?_)
  show rowAddBias (R := 50000) (N := 64) (mm (R := 50000) (K := 128) (N := 64)
      (rowBiasRelu (R := 50000) (N := 128) (W6 m ρ c (Proc.devRef .tc main_v47)) (W6 m ρ c (Proc.devRef .tc main_v49)))
      (W6 m ρ c (Proc.devRef .tc main_arg4))) (W6 m ρ c (Proc.devRef .tc main_v50))
    = mm (R := 50000) (K := 128) (N := 64)
        (biasRelu (R := 50000) (N := 128) (agg128 (aE m c) (mm (R := 50000) (K := 256) (N := 128) (aX m c) (aW1 m c))) (aB1 m c)) (aW2 m c)
  rw [W6_agg, W6_bias, rowBiasRelu_cast, W6_w, W6_v50]
  exact rowAddBias_zero _ _ (fun j => rfl)

theorem W7_node (c : Dev nD) : W7 m ρ c (Proc.devRef .tc main_v1) = nodeRow (aE m c) :=
  (W7_of_ne m ρ c main_v1 (by decide)).trans (W6_node m ρ c)
theorem W7_edge (c : Dev nD) : W7 m ρ c (Proc.devRef .tc main_v3) = edgeRow (aE m c) :=
  (W7_of_ne m ρ c main_v3 (by decide)).trans (W6_edge m ρ c)
theorem W7_dinv (c : Dev nD) : W7 m ρ c (Proc.devRef .tc main_v15) = invCount (nodeRow (aE m c)) :=
  (W7_of_ne m ρ c main_v15 (by decide)).trans (W6_dinv m ρ c)
theorem W7_binv (c : Dev nD) : W7 m ρ c (Proc.devRef .tc main_v20) = invCount (edgeRow (aE m c)) :=
  (W7_of_ne m ρ c main_v20 (by decide)).trans (W6_binv m ρ c)
theorem W7_b2 (c : Dev nD) : W7 m ρ c (Proc.devRef .tc main_arg5) = aB2 m c :=
  (W7_of_ne m ρ c main_arg5 (by decide)).trans (W6_b2 m ρ c)
theorem W7_wp (c : Dev nD) : W7 m ρ c (Proc.devRef .tc main_arg6) = aWp m c :=
  (W7_of_ne m ρ c main_arg6 (by decide)).trans (W6_wp m ρ c)
theorem W7_bp (c : Dev nD) : W7 m ρ c (Proc.devRef .tc main_arg7) = aBp m c :=
  (W7_of_ne m ρ c main_arg7 (by decide)).trans (W6_bp m ρ c)

/-! ## At the third call's entry (`W8`) -/

/-- The aggregate of `features_1 · W2`. -/
theorem W8_agg (c : Dev nD) : W8 m ρ c (Proc.devRef .tc main_v77)
    = agg64 (aE m c) (mm (R := 50000) (K := 128) (N := 64) (features1 (aX m c) (aE m c) (aW1 m c) (aB1 m c)) (aW2 m c)) := by
  rw [W8_v77, W7_node, W7_edge, W7_dinv, W7_binv, W7_xw2]
  rfl
theorem W8_bias (c : Dev nD) : W8 m ρ c (Proc.devRef .tc main_v78) = shapeCast S1x64 (aB2 m c) shapeCasts_S64_S1x64 := by
  rw [W8_v78, W7_b2]
theorem W8_biasp (c : Dev nD) : W8 m ρ c (Proc.devRef .tc main_v79) = shapeCast S1x64 (aBp m c) shapeCasts_S64_S1x64 := by
  rw [W8_v79, W7_bp]
theorem W8_wp (c : Dev nD) : W8 m ρ c (Proc.devRef .tc main_arg6) = aWp m c := by rw [W8_arg6, W7_wp]
theorem W8_h1 (c : Dev nD) : W8 m ρ c (Proc.devRef .tc main_v51_0) = features1 (aX m c) (aE m c) (aW1 m c) (aB1 m c) := by
  rw [W8_v51_0, W7_h1]

/-! ## After the third call (`W9`): the three results -/

/-- The second features. -/
theorem W9_h2 (c : Dev nD) : W9 m ρ c (Proc.devRef .tc main_v80_0)
    = features2 (aX m c) (aE m c) (aW1 m c) (aB1 m c) (aW2 m c) (aB2 m c) := by
  refine (W9_arr m ρ c 4).trans ((Region2.final4 (V8 m ρ) c).trans ?_)
  show rowBiasRelu (R := 50000) (N := 64) (W8 m ρ c (Proc.devRef .tc main_v77)) (W8 m ρ c (Proc.devRef .tc main_v78))
    = biasRelu (R := 50000) (N := 64) (agg64 (aE m c) (mm (R := 50000) (K := 128) (N := 64)
        (features1 (aX m c) (aE m c) (aW1 m c) (aB1 m c)) (aW2 m c))) (aB2 m c)
  rw [W8_agg, W8_bias, rowBiasRelu_cast]

/-- The read-out. -/
theorem W9_z (c : Dev nD) : W9 m ρ c (Proc.devRef .tc main_v80_1)
    = logits (aX m c) (aE m c) (aW1 m c) (aB1 m c) (aW2 m c) (aB2 m c) (aWp m c) (aBp m c) := by
  refine (W9_arr m ρ c 5).trans ((Region2.final5 (V8 m ρ) c).trans ?_)
  show rowAddBias (R := 50000) (N := 64) (mm (R := 50000) (K := 64) (N := 64)
      (rowBiasRelu (R := 50000) (N := 64) (W8 m ρ c (Proc.devRef .tc main_v77)) (W8 m ρ c (Proc.devRef .tc main_v78)))
      (W8 m ρ c (Proc.devRef .tc main_arg6))) (W8 m ρ c (Proc.devRef .tc main_v79))
    = addBias (R := 50000) (N := 64) (mm (R := 50000) (K := 64) (N := 64)
        (biasRelu (R := 50000) (N := 64) (agg64 (aE m c) (mm (R := 50000) (K := 128) (N := 64)
          (features1 (aX m c) (aE m c) (aW1 m c) (aB1 m c)) (aW2 m c))) (aB2 m c)) (aWp m c)) (aBp m c)
  rw [W8_agg, W8_bias, rowBiasRelu_cast, W8_wp, W8_biasp, rowAddBias_cast]

/-- The first features, untouched by the third stretch and the third call. -/
theorem W9_h1 (c : Dev nD) : W9 m ρ c (Proc.devRef .tc main_v51_0) = features1 (aX m c) (aE m c) (aW1 m c) (aB1 m c) :=
  (W9_of_ne m ρ c main_v51_0 (by decide)).trans (W8_h1 m ρ c)

/-! ## The run, read -/

/-- Every weakly fair execution of the kernel program terminates with its three results at the network's three arrays of the
    arguments, and the arguments as launched. -/
theorem run : θ_run defs (onTc (τ := τ) (main (F := Ideal))) ⟨m, fun _ => 0, ρ⟩ (fun r => ∀ c : Dev nD,
      r.2.mem ((c.tc : Thread nD τ).loc main_v80_1) = logits (aX m c) (aE m c) (aW1 m c) (aB1 m c) (aW2 m c) (aB2 m c) (aWp m c) (aBp m c)
      ∧ r.2.mem ((c.tc : Thread nD τ).loc main_v51_0) = features1 (aX m c) (aE m c) (aW1 m c) (aB1 m c)
      ∧ r.2.mem ((c.tc : Thread nD τ).loc main_v80_0) = features2 (aX m c) (aE m c) (aW1 m c) (aB1 m c) (aW2 m c) (aB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W9_z m ρ c), (h c).2.1.trans (W9_h1 m ρ c),
      (h c).2.2.1.trans (W9_h2 m ρ c), (h c).2.2.2⟩)
    (Cert.KernelIdeal.Named.run_named m ρ)

end Cert.KernelIdeal.Fold

end
-- ==== Proof.lean ====
/-
  The network of this certificate is a two-layer hypergraph convolution with a linear read-out,
  `features_1 = max (agg (x · W1) + b1) 0`, `features_2 = max (agg (features_1 · W2) + b2) 0`, `z = features_2 · Wp + bp`,
  where `agg` sends node features through the incidence list twice (nodes to hyperedges scaled by the reciprocal hyperedge
  sizes, hyperedges back to nodes scaled by the reciprocal node degrees). The kernel program computes the three dense
  stages in three calls tiled over blocks of 5000 rows, with the aggregation run on the host between them; the reference
  is one host program. Over the extended reals:
  • every entry of a block's matrix product, bias addition and clamp reads one row of the block, so each call leaves
    the same functions of the whole arrays (`Region0`, `Region1`, `Region2` over `Layers` / `LayerForms`);
  • the host stages between the calls are the reference's own operations, carried as named functions and never opened
    (`HostStages`, read through the kernel program's boundaries in `FoldHost` and `FoldValue`);
  • a bias laid out as a row is the bias vector, and the zero bias the second call adds changes nothing (`x + 0 = x`);
  • the reference's composed result terms, read in stages, are the same three arrays (`RefValue`).
  No law of the extended reals beyond `x + 0 = x` is used, so the precondition is never opened.
-/
import proofs.«125717_j69990787055765_1_alg».proof.Defs
import proofs.«125717_j69990787055765_1_alg».proof.Proof.Gen.Kernel
import proofs.«125717_j69990787055765_1_alg».proof.Proof.Gen.Kernel.Frame
import proofs.«125717_j69990787055765_1_alg».proof.Proof.Gen.KernelIdeal
import proofs.«125717_j69990787055765_1_alg».proof.Proof.Gen.KernelIdeal.Frame
import proofs.«125717_j69990787055765_1_alg».proof.Proof.Gen.ReferenceIdeal
import proofs.«125717_j69990787055765_1_alg».proof.Proof.Gen.Pre_finite_inputs
import proofs.«125717_j69990787055765_1_alg».proof.Proof.RefRun
import proofs.«125717_j69990787055765_1_alg».proof.Proof.RefValue
import proofs.«125717_j69990787055765_1_alg».proof.Proof.FoldValue
import Idealize.ShloMosaic.Adequacy
import Idealize.ShloMosaic.Init

noncomputable section

namespace Cert.Proof

open Idealize.ShloMosaic Idealize.SL.Sem

/-- The word-level kernel program runs and leaves its arguments alone. -/
theorem frame_kernel : Cert.frame_Kernel := fun m ρ _ => Cert.Kernel.Gen.frame m ρ

/-- So does the kernel program over the extended reals. -/
theorem frame_kernelIdeal : Cert.frame_KernelIdeal := fun m ρ _ => Cert.KernelIdeal.Gen.frame m ρ

/-- The reference runs and leaves its arguments alone: its run with the three results dropped. -/
theorem frame_referenceIdeal : Cert.frame_ReferenceIdeal := fun m ρ _ =>
  (θ_run Cert.ReferenceIdeal.defs _ _).mono (fun _ h c => (h c).2.2.2) (Cert.ReferenceIdeal.RunP.run (F := Ideal) m ρ)

/-- The ideal pass rewrote nothing. -/
theorem preserves : Cert.preserves_Kernel_KernelIdeal := trivial

/-- Both programs end at the network's three arrays of their (agreeing) arguments. -/
theorem algebraic : Cert.algebraic_KernelIdeal_ReferenceIdeal := by
  intro m ρ m' ρ' _ hagree
  refine ⟨_, _, _, Cert.KernelIdeal.Fold.run m ρ, ?_⟩
  refine (θ_run Cert.ReferenceIdeal.defs _ _).mono (fun _ h c => ?_) (Cert.ReferenceIdeal.RunP.run (F := Ideal) m' ρ')
  obtain ⟨h0, h1, h2, hrest⟩ := h c
  obtain ⟨e0, e1, e2, e3, e4, e5, e6, e7⟩ := hagree c
  refine ⟨h0.trans ?_, h1.trans ?_, h2.trans ?_, hrest⟩
  · rw [Cert.ReferenceIdeal.RefValue.logits_eq, e0, e1, e2, e3, e4, e5, e6, e7]
  · rw [Cert.ReferenceIdeal.RefValue.features1_eq, e0, e1, e2, e3]
  · rw [Cert.ReferenceIdeal.RefValue.features2_eq, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
